-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000x128 : Shape := ⟨2, ![600000, 128]⟩
abbrev S50000x128 : Shape := ⟨2, ![50000, 128]⟩
abbrev S2x600000 : Shape := ⟨2, ![2, 600000]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S600000x128 : S_.BroadcastsInDim S600000x128 (![] : Fin 0 → Fin S600000x128.rank)
  reducesTo_S600000x128_S_d0_1 : S600000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x600000 : S_.BroadcastsInDim S2x600000 (![] : Fin 0 → Fin S2x600000.rank)
  reducesTo_S2x600000_S_d0_1 : S2x600000.ReducesTo [0, 1] S_

variable [Facts]

def fn_part3 {F : FTy → Type} [FloatOps F] (main_arg2 : IVec S2x600000 32) (main_v48 : IVec S_ 1) (main_v50 : IVec S2x600000 1) : IVec S_ 1 :=
  let main_c_19 : IVec S_ 32 := constantI S_ 32 50000#32
  let main_v51 : IVec S2x600000 32 := broadcastInDim S2x600000 ![] bcast_S_S2x600000 main_c_19
  let main_v52 : IVec S2x600000 1 := cmpi .slt main_arg2 main_v51
  let main_v53 : IVec S2x600000 1 := andi main_v50 main_v52
  let main_c_20 : IVec S_ 1 := constantI S_ 1 1#1
  let main_v54 : IVec S_ 1 := (fun x v => Host.reduce IntOp.andi x v reducesTo_S2x600000_S_d0_1 h_S_) main_v53 main_c_20
  let main_v55 : IVec S_ 1 := andi main_v48 main_v54
  main_v55

def fn_part2 {F : FTy → Type} [FloatOps F] (main_arg2 : IVec S2x600000 32) (main_arg8 : FVec F S128 .f32) (main_arg9 : FVec F S128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 4294917296#32
  let main_v49 : IVec S2x600000 32 := broadcastInDim S2x600000 ![] bcast_S_S2x600000 main_c_18
  let main_v50 : IVec S2x600000 1 := cmpi .sge main_arg2 main_v49
  fn_part3 (F := F) main_arg2 main_v48 main_v50

def fn_part1 {F : FTy → Type} [FloatOps F] (main_arg2 : IVec S2x600000 32) (main_arg5 : FVec F S128x128 .f32) (main_arg6 : FVec F S128 .f32) (main_arg7 : FVec F S128x128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S600000x128 .f32) (main_arg1 : FVec F S50000x128 .f32) (main_arg2 : IVec S2x600000 32) (main_arg3 : FVec F S384x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) : IVec S_ 1 :=
  let main_v0 : FVec F S600000x128 .f32 := Host.absf main_arg0
  let main_cst : FVec F S_ .f32 := constant S_ .f32 0x7F800000#32
  let main_v1 : FVec F S600000x128 .f32 := broadcastInDim S600000x128 ![] bcast_S_S600000x128 main_cst
  let main_v2 : IVec S600000x128 1 := cmpf .olt main_v0 main_v1
  let main_c : IVec S_ 1 := constantI S_ 1 1#1
  let main_v3 : IVec S_ 1 := (fun x v => Host.reduce IntOp.andi x v reducesTo_S600000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_v13 main_v16
-- ==== Kernel.lean ====
abbrev S600000x128 : Shape := ⟨2, ![600000, 128]⟩
abbrev S50000x128 : Shape := ⟨2, ![50000, 128]⟩
abbrev S2x600000 : Shape := ⟨2, ![2, 600000]⟩
abbrev S384x128 : Shape := ⟨2, ![384, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S4000x128 : Shape := ⟨2, ![4000, 128]⟩
abbrev S4000x384 : Shape := ⟨2, ![4000, 384]⟩
abbrev S1x128 : Shape := ⟨2, ![1, 128]⟩
abbrev S4000 : Shape := ⟨1, ![4000]⟩
abbrev S4000x1 : Shape := ⟨2, ![4000, 1]⟩

abbrev nBuf : Space → Nat
  | .hbm => 62
  | .vmem => 16
  | .smem => 0
  | _ => 0

abbrev bufTy : (tb : Table) → Fin (tcTables nBuf tb) → BufTy
  | .hbm, ⟨0, _⟩ => ⟨S600000x128, .f32⟩
  | .hbm, ⟨1, _⟩ => ⟨S50000x128, .f32⟩
  | .hbm, ⟨2, _⟩ => ⟨S2x600000, .i32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S1, .i32⟩
  | .hbm, ⟨24, _⟩ => ⟨S_, .i32⟩
  | .hbm, ⟨25, _⟩ => ⟨S600000x1, .i32⟩
  | .hbm, ⟨26, _⟩ => ⟨S600000x1, .i1⟩
  | .hbm, ⟨27, _⟩ => ⟨S1x1, .i32⟩
  | .hbm, ⟨28, _⟩ => ⟨S600000x1, .i32⟩
  | .hbm, ⟨29, _⟩ => ⟨S600000x1, .i1⟩
  | .hbm, ⟨30, _⟩ => ⟨S600000x1, .i1⟩
  | .hbm, ⟨31, _⟩ => ⟨S_, .i1⟩
  | .hbm, ⟨32, _⟩ => ⟨S600000, .i1⟩
  | .hbm, ⟨33, _⟩ => ⟨S600000x128, .f32⟩
  | .hbm, ⟨34, _⟩ => ⟨S600000x128, .i1⟩
  | .hbm, ⟨35, _⟩ => ⟨S_, .f32⟩
  | .hbm, ⟨36, _⟩ => ⟨S600000x128, .f32⟩
  | .hbm, ⟨37, _⟩ => ⟨S600000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S1, .i32⟩
  | .hbm, ⟨47, _⟩ => ⟨S_, .i32⟩
  | .hbm, ⟨48, _⟩ => ⟨S600000x1, .i32⟩
  | .hbm, ⟨49, _⟩ => ⟨S600000x1, .i1⟩
  | .hbm, ⟨50, _⟩ => ⟨S1x1, .i32⟩
  | .hbm, ⟨51, _⟩ => ⟨S600000x1, .i32⟩
  | .hbm, ⟨52, _⟩ => ⟨S600000x1, .i1⟩
  | .hbm, ⟨53, _⟩ => ⟨S600000x1, .i1⟩
  | .hbm, ⟨54, _⟩ => ⟨S_, .i1⟩
  | .hbm, ⟨55, _⟩ => ⟨S600000, .i1⟩
  | .hbm, ⟨56, _⟩ => ⟨S600000x128, .f32⟩
  | .hbm, ⟨57, _⟩ => ⟨S600000x128, .i1⟩
  | .hbm, ⟨58, _⟩ => ⟨S_, .f32⟩
  | .hbm, ⟨59, _⟩ => ⟨S600000x128, .f32⟩
  | .hbm, ⟨60, _⟩ => ⟨S600000x128, .f32⟩
  | .hbm, ⟨61, _⟩ => ⟨S600000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S384x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S4000x128, .f32⟩
  | .local _ .vmem, ⟨15, _⟩ => ⟨S4000x128, .f32⟩
  | _, _ => ⟨S600000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  concatenates_S4000x128_S4000x128_S4000x128_S4000x384_d1 : Shape.Concatenates [S4000x128, S4000x128, S4000x128] S4000x384 1
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  reduces_S4000x128_S4000 : S4000x128.Reduces [1] S4000
  shapeCasts_S4000_S4000x1 : S4000.ShapeCasts S4000x1
  broadcasts_S4000x1_S4000x128 : S4000x1.Broadcasts S4000x128
  gather_S50000x128_S600000x1_S600000x128_1_0_n_n_0_1_1128_wf : GatherDims.WF S50000x128 S600000x1 S600000x128 [1] [0] [] [0] [] 1 ![1, 128]
  dot_S4000x384_S384x128_S4000x128_1_0_0_1_n_n_wf : DotDims.WF S4000x384 S384x128 S4000x128 [1] [0] [0] [1] [] []
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S600000x128.size a
  hwx0_0 : ∀ i : grid0.Coords, EltTy.bits .f32 = 32 ∨ (Rect.block (s := S600000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S600000x128.size a
  hwx0_1 : ∀ i : grid0.Coords, EltTy.bits .f32 = 32 ∨ (Rect.block (s := S600000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S600000x128.size a
  hwx0_2 : ∀ i : grid0.Coords, EltTy.bits .f32 = 32 ∨ (Rect.block (s := S600000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S600000x128.size a
  hwx0_11 : ∀ i : grid0.Coords, EltTy.bits .f32 = 32 ∨ (Rect.block (s := S600000x128) S4000x128.size (cc0_transform_11 i) (hinb0_11 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S4000x384_S384x128_S4000x128_1_0_0_1_n_n : DotDims S4000x384 S384x128 S4000x128 where
  lhsContracting := [1]
  rhsContracting := [0]
  lhsNonContracting := [0]
  rhsNonContracting := [1]
  lhsBatch := []
  rhsBatch := []
  wf := dot_S4000x384_S384x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S600000x128 : Shape := ⟨2, ![600000, 128]⟩
abbrev S50000x128 : Shape := ⟨2, ![50000, 128]⟩
abbrev S2x600000 : Shape := ⟨2, ![2, 600000]⟩
abbrev S384x128 : Shape := ⟨2, ![384, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x384 : Shape := ⟨2, ![600000, 384]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S600000x128, .f32⟩
  | .hbm, ⟨1, _⟩ => ⟨S50000x128, .f32⟩
  | .hbm, ⟨2, _⟩ => ⟨S2x600000, .i32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x384, .f32⟩
  | .hbm, ⟨34, _⟩ => ⟨S600000x128, .f32⟩
  | .hbm, ⟨35, _⟩ => ⟨S1x128, .f32⟩
  | .hbm, ⟨36, _⟩ => ⟨S600000x128, .f32⟩
  | .hbm, ⟨37, _⟩ => ⟨S600000x128, .f32⟩
  | .hbm, ⟨38, _⟩ => ⟨S_, .f32⟩
  | .hbm, ⟨39, _⟩ => ⟨S600000x128, .f32⟩
  | .hbm, ⟨40, _⟩ => ⟨S600000x128, .f32⟩
  | .hbm, ⟨41, _⟩ => ⟨S600000x128, .f32⟩
  | .hbm, ⟨42, _⟩ => ⟨S1x128, .f32⟩
  | .hbm, ⟨43, _⟩ => ⟨S600000x128, .f32⟩
  | .hbm, ⟨44, _⟩ => ⟨S600000x128, .f32⟩
  | .hbm, ⟨45, _⟩ => ⟨S_, .f32⟩
  | .hbm, ⟨46, _⟩ => ⟨S600000x128, .f32⟩
  | .hbm, ⟨47, _⟩ => ⟨S600000x128, .f32⟩
  | .hbm, ⟨48, _⟩ => ⟨S600000x128, .f32⟩
  | .hbm, ⟨49, _⟩ => ⟨S1x128, .f32⟩
  | .hbm, ⟨50, _⟩ => ⟨S600000x128, .f32⟩
  | .hbm, ⟨51, _⟩ => ⟨S600000x128, .f32⟩
  | .hbm, ⟨52, _⟩ => ⟨S_, .f32⟩
  | .hbm, ⟨53, _⟩ => ⟨S600000, .f32⟩
  | .hbm, ⟨54, _⟩ => ⟨S600000x1, .f32⟩
  | .hbm, ⟨55, _⟩ => ⟨S_, .f32⟩
  | .hbm, ⟨56, _⟩ => ⟨S600000x1, .f32⟩
  | .hbm, ⟨57, _⟩ => ⟨S600000x1, .f32⟩
  | .hbm, ⟨58, _⟩ => ⟨S600000x128, .f32⟩
  | .hbm, ⟨59, _⟩ => ⟨S600000x128, .f32⟩
  | .hbm, ⟨60, _⟩ => ⟨S600000x128, .f32⟩
  | .hbm, ⟨61, _⟩ => ⟨S_, .f32⟩
  | .hbm, ⟨62, _⟩ => ⟨S600000, .f32⟩
  | .hbm, ⟨63, _⟩ => ⟨S600000x1, .f32⟩
  | .hbm, ⟨64, _⟩ => ⟨S_, .f32⟩
  | .hbm, ⟨65, _⟩ => ⟨S600000x1, .f32⟩
  | .hbm, ⟨66, _⟩ => ⟨S600000x1, .f32⟩
  | .hbm, ⟨67, _⟩ => ⟨S600000x128, .f32⟩
  | .hbm, ⟨68, _⟩ => ⟨S600000x128, .f32⟩
  | .hbm, ⟨69, _⟩ => ⟨S_, .f32⟩
  | .hbm, ⟨70, _⟩ => ⟨S600000x1, .f32⟩
  | .hbm, ⟨71, _⟩ => ⟨S600000x1, .f32⟩
  | .hbm, ⟨72, _⟩ => ⟨S600000x1, .f32⟩
  | .hbm, ⟨73, _⟩ => ⟨S600000x128, .f32⟩
  | .hbm, ⟨74, _⟩ => ⟨S600000x128, .f32⟩
  | .hbm, ⟨75, _⟩ => ⟨S1x128, .f32⟩
  | .hbm, ⟨76, _⟩ => ⟨S600000x128, .f32⟩
  | .hbm, ⟨77, _⟩ => ⟨S600000x128, .f32⟩
  | .hbm, ⟨78, _⟩ => ⟨S1x128, .f32⟩
  | .hbm, ⟨79, _⟩ => ⟨S600000x128, .f32⟩
  | .hbm, ⟨80, _⟩ => ⟨S600000x128, .f32⟩
  | _, _ => ⟨S600000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x128_S600000x384_d1 : Shape.Concatenates [S600000x128, S600000x128, S600000x128] S600000x384 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  reducesTo_S600000x128_S600000_d1 : S600000x128.ReducesTo [1] S600000
  h_S_ : 0 < S_.numel
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  gather_S50000x128_S600000x1_S600000x128_1_0_n_n_0_1_1128_wf : GatherDims.WF S50000x128 S600000x1 S600000x128 [1] [0] [] [0] [] 1 ![1, 128]
  dot_S600000x384_S384x128_S600000x128_1_0_0_1_n_n_wf : DotDims.WF S600000x384 S384x128 S600000x128 [1] [0] [0] [1] [] []
  dot_S600000x128_S128x128_S600000x128_1_0_0_1_n_n_wf : DotDims.WF S600000x128 S128x128 S600000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x384_S384x128_S600000x128_1_0_0_1_n_n : DotDims S600000x384 S384x128 S600000x128 where
  lhsContracting := [1]
  rhsContracting := [0]
  lhsNonContracting := [0]
  rhsNonContracting := [1]
  lhsBatch := []
  rhsBatch := []
  wf := dot_S600000x384_S384x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf

class Facts : Prop extends Facts₀ where

variable [Facts]
-- ==== Proof.Spec.lean ====
/-
  The function both programs compute, one output row at a time, on the extended reals.

  For an edge `e` the input row is the concatenation of the edge's own 128 features with the 128 features of its
  sender node and the 128 of its receiver node (384 entries). Three affine layers follow, the first two each
  followed by a maximum with zero: `h₁ = max (x · W_in + b_in) 0`, `h₂ = max (h₁ · W_h + b_h) 0`,
  `o = h₂ · W_out + b_out`, every product a plain sum over the contracted coordinate. The row is then
  normalised: with `μ` the sum of the row's 128 entries divided by 128 and `v` the sum of the squares
  `(o k - μ)²` divided by 128, the result is `(o j - μ) · rsqrt (v + ε) · γ j + β j`. The constants `0`, `128` and
  `ε` stay the binary words both programs print; none of them is ever evaluated.
-/
import Idealize.ShloMosaic.PureOps.Ideal
import Idealize.ShloMosaic.Lib.ValueIdx

noncomputable section

open scoped BigOperators

namespace Cert.EdgeMlp

open Idealize.ShloMosaic Idealize.ShloMosaic.ValueIdx

/-- Row `r` of an `[R, 128]` array. -/
def row {R : Nat} (x : (⟨2, ![R, 128]⟩ : Shape).Idx → EReal) (r : Fin R) : Fin 128 → EReal := fun k => x (ix2 r k)

/-- A `[K, 128]` weight array as a function of its two coordinates. -/
def mat {K : Nat} (W : (⟨2, ![K, 128]⟩ : Shape).Idx → EReal) : Fin K → Fin 128 → EReal := fun k j => W (ix2 k j)

/-- A `[128]` array as a function of its coordinate. -/
def vec (b : (⟨1, ![128]⟩ : Shape).Idx → EReal) : Fin 128 → EReal := fun j => b (ix1 j)

/-- Three rows of 128 side by side: entries 0–127 from `a`, 128–255 from `b`, 256–383 from `c`. -/
def cat3 (a b c : Fin 128 → EReal) : Fin 384 → EReal := fun k =>
  if h : k.val < 128 then a ⟨k.val, h⟩
  else if h2 : k.val < 256 then b ⟨k.val - 128, by omega⟩
  else c ⟨k.val - 256, by have := k.isLt; omega⟩

/-- One affine layer on a row: `(x · W) j + b j`. -/
def dense {n : Nat} (x : Fin n → EReal) (W : Fin n → Fin 128 → EReal) (b : Fin 128 → EReal) : Fin 128 → EReal :=
  fun j => (∑ k, x k * W k j) + b j

/-- The maximum with the zero word, entry by entry. -/
def relu (v : Fin 128 → EReal) : Fin 128 → EReal := fun j => max (v j) (Ideal.ofBits .f32 0x00000000#32)

/-- The three layers on the concatenated row. -/
def mlp (a b c : Fin 128 → EReal) (Win : Fin 384 → Fin 128 → EReal) (bin : Fin 128 → EReal)
    (Wh : Fin 128 → Fin 128 → EReal) (bh : Fin 128 → EReal) (Wout : Fin 128 → Fin 128 → EReal) (bout : Fin 128 → EReal) :
    Fin 128 → EReal :=
  dense (relu (dense (relu (dense (cat3 a b c) Win bin)) Wh bh)) Wout bout

/-- A row's sum divided by the word of 128. -/
def mean (y : Fin 128 → EReal) : EReal := Ideal.div (∑ k, y k) (Ideal.ofBits .f32 0x43000000#32)

/-- The row normalised, scaled and shifted. -/
def lnorm (y g β : Fin 128 → EReal) : Fin 128 → EReal := fun j =>
  (y j - mean y) * Ideal.rsqrt (mean (fun k => (y k - mean y) * (y k - mean y)) + Ideal.ofBits .f32 0x3727C5AC#32) * g j + β j

/-- The whole result array of `R` edges: row `i 0`, entry `i 1`. -/
def G {R : Nat} (edge snd rcv : (⟨2, ![R, 128]⟩ : Shape).Idx → EReal) (Win : (⟨2, ![384, 128]⟩ : Shape).Idx → EReal)
    (bin : (⟨1, ![128]⟩ : Shape).Idx → EReal) (Wh : (⟨2, ![128, 128]⟩ : Shape).Idx → EReal)
    (bh : (⟨1, ![128]⟩ : Shape).Idx → EReal) (Wout : (⟨2, ![128, 128]⟩ : Shape).Idx → EReal)
    (bout g β : (⟨1, ![128]⟩ : Shape).Idx → EReal) : (⟨2, ![R, 128]⟩ : Shape).Idx → EReal := fun i =>
  lnorm (mlp (row edge ⟨(i 0).val, idx2_lt0 i⟩) (row snd ⟨(i 0).val, idx2_lt0 i⟩) (row rcv ⟨(i 0).val, idx2_lt0 i⟩)
      (mat Win) (vec bin) (mat Wh) (vec bh) (mat Wout) (vec bout)) (vec g) (vec β) ⟨(i 1).val, idx2_lt1 i⟩

/-- `G` at an index given by its coordinates. -/
theorem G_ix2 {R : Nat} (edge snd rcv : (⟨2, ![R, 128]⟩ : Shape).Idx → EReal) (Win : (⟨2, ![384, 128]⟩ : Shape).Idx → EReal)
    (bin : (⟨1, ![128]⟩ : Shape).Idx → EReal) (Wh : (⟨2, ![128, 128]⟩ : Shape).Idx → EReal)
    (bh : (⟨1, ![128]⟩ : Shape).Idx → EReal) (Wout : (⟨2, ![128, 128]⟩ : Shape).Idx → EReal)
    (bout g β : (⟨1, ![128]⟩ : Shape).Idx → EReal) (r : Fin R) (j : Fin 128) :
    G edge snd rcv Win bin Wh bh Wout bout g β (ix2 r j)
      = lnorm (mlp (row edge r) (row snd r) (row rcv r) (mat Win) (vec bin) (mat Wh) (vec bh) (mat Wout) (vec bout))
          (vec g) (vec β) j := rfl

end Cert.EdgeMlp

end
-- ==== Proof.KernelBlocks.lean ====
/-
  One grid point of the kernel, as the region finds its arrays.

  The grid has 150 points; point `t` works on edges `4000 t … 4000 t + 3999`. Its three streamed input blocks are
  those 4000 rows of the edge-feature array and of the two gathered node-feature arrays, and its output block is the
  same 4000 rows of the result; the eight weight, bias, scale and shift arrays are staged whole at every point. So a
  streamed block's entry `(r, k)` is the array's entry `(4000 t + r, k)`, a whole-staged block is the array itself,
  and what the point writes back is the body's result on these blocks.
-/
import proofs.«427870_j38345468018709_1_alg».proof.Proof.Gen.KernelIdeal.Value
import proofs.«427870_j38345468018709_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.EdgeMlp.KernelBlocks

open Cert.KernelIdeal Cert.KernelIdeal.Gen Cert.KernelIdeal.Value

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three streamed inputs and the output take block row `t`, block
    column 0; every whole-staged operand takes block 0. -/
theorem idx_facts : ∀ t : Fin cfg0.N,
    win0_11.index t (0 : Fin 2) = t.val ∧ win0_11.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 1) = 0
    ∧ win0_10.index t (0 : Fin 1) = 0 :=
  (by decide +kernel : ∀ t : Fin grid0.N, _)

/-- What the body leaves in the output block, for any input blocks: the index-by-index function `E11` of them. -/
theorem out_eq (x0 x1 x2 : Vec Ideal S4000x128 .f32) (x3 : Vec Ideal S384x128 .f32) (x4 : Vec Ideal S128 .f32)
    (x5 : Vec Ideal S128x128 .f32) (x6 : Vec Ideal S128 .f32) (x7 : Vec Ideal S128x128 .f32) (x8 x9 x10 : Vec Ideal S128 .f32)
    (y : S4000x128.Idx) :
    out0_11 x0 x1 x2 x3 x4 x5 x6 x7 x8 x9 x10 y = E11 (F := Ideal) x0 x1 x2 x3 x4 x5 x6 x7 x8 x9 x10 y := by
  unfold out0_11
  simp only [View.ld_unit_zero (S := S4000x128) hz2, View.ld_unit_zero (S := S384x128) hz2, View.ld_unit_zero (S := S128) hz1,
    View.ld_unit_zero (S := S128x128) hz2]
  exact canon11_eq x0 x1 x2 x3 x4 x5 x6 x7 x8 x9 x10 y

/-- Streamed window 0, for any contents `X` of its array: entry `(r, k)` of the block at point `t` is entry
    `(4000 t + r, k)` of `X`. -/
theorem read0 (c : Dev nD) (t : Fin cfg0.N) (X : Buf (Elt Ideal) ((c : Thread nD τ).loc main_arg0)) (r : Fin 4000) (k : Fin 128) :
    (((cfg0.win 0).blk t).view.read (Elt Ideal) X : S4000x128.Idx → EReal) (ix2 r k)
      = (X : S600000x128.Idx → EReal) (ix2 ⟨4000 * t.val + r.val, by have := t.isLt; have hN : cfg0.N = 150 := N_0; have := r.isLt; omega⟩ k) := by
  have e0 : win0_0.index t (0 : Fin 2) = t.val := (idx_facts t).2.2.1
  have e1 : win0_0.index t (1 : Fin 2) = 0 := (idx_facts t).2.2.2.1
  rw [View.read_apply]
  refine congrArg (X : S600000x128.Idx → EReal) (funext fun a => Fin.ext ?_)
  match a with
  | ⟨0, _⟩ => show win0_0.index t 0 * 4000 + 1 * r.val = 4000 * t.val + r.val; rw [e0]; omega
  | ⟨1, _⟩ => show win0_0.index t 1 * 128 + 1 * k.val = k.val; rw [e1]; omega

/-- So row `r` of that block is row `4000 t + r` of the array as the region finds it. -/
theorem row_blk0 (c : Dev nD) (t : Fin cfg0.N) (r : Fin 4000) :
    row (R := 4000) (iblk m c 0 t) r
      = row (R := 600000) (V m c main_arg0) ⟨4000 * t.val + r.val, by have := t.isLt; have hN : cfg0.N = 150 := N_0; have := r.isLt; omega⟩ :=
  funext fun k => read0 c t (V m c main_arg0) r k

/-- Streamed window 1, for any contents `X` of its array: entry `(r, k)` of the block at point `t` is entry
    `(4000 t + r, k)` of `X`. -/
theorem read1 (c : Dev nD) (t : Fin cfg0.N) (X : Buf (Elt Ideal) ((c : Thread nD τ).loc main_v4)) (r : Fin 4000) (k : Fin 128) :
    (((cfg0.win 1).blk t).view.read (Elt Ideal) X : S4000x128.Idx → EReal) (ix2 r k)
      = (X : S600000x128.Idx → EReal) (ix2 ⟨4000 * t.val + r.val, by have := t.isLt; have hN : cfg0.N = 150 := N_0; have := r.isLt; omega⟩ k) := by
  have e0 : win0_1.index t (0 : Fin 2) = t.val := (idx_facts t).2.2.2.2.1
  have e1 : win0_1.index t (1 : Fin 2) = 0 := (idx_facts t).2.2.2.2.2.1
  rw [View.read_apply]
  refine congrArg (X : S600000x128.Idx → EReal) (funext fun a => Fin.ext ?_)
  match a with
  | ⟨0, _⟩ => show win0_1.index t 0 * 4000 + 1 * r.val = 4000 * t.val + r.val; rw [e0]; omega
  | ⟨1, _⟩ => show win0_1.index t 1 * 128 + 1 * k.val = k.val; rw [e1]; omega

/-- So row `r` of that block is row `4000 t + r` of the array as the region finds it. -/
theorem row_blk1 (c : Dev nD) (t : Fin cfg0.N) (r : Fin 4000) :
    row (R := 4000) (iblk m c 1 t) r
      = row (R := 600000) (V m c main_v4) ⟨4000 * t.val + r.val, by have := t.isLt; have hN : cfg0.N = 150 := N_0; have := r.isLt; omega⟩ :=
  funext fun k => read1 c t (V m c main_v4) r k

/-- Streamed window 2, for any contents `X` of its array: entry `(r, k)` of the block at point `t` is entry
    `(4000 t + r, k)` of `X`. -/
theorem read2 (c : Dev nD) (t : Fin cfg0.N) (X : Buf (Elt Ideal) ((c : Thread nD τ).loc main_v5)) (r : Fin 4000) (k : Fin 128) :
    (((cfg0.win 2).blk t).view.read (Elt Ideal) X : S4000x128.Idx → EReal) (ix2 r k)
      = (X : S600000x128.Idx → EReal) (ix2 ⟨4000 * t.val + r.val, by have := t.isLt; have hN : cfg0.N = 150 := N_0; have := r.isLt; omega⟩ k) := by
  have e0 : win0_2.index t (0 : Fin 2) = t.val := (idx_facts t).2.2.2.2.2.2.1
  have e1 : win0_2.index t (1 : Fin 2) = 0 := (idx_facts t).2.2.2.2.2.2.2.1
  rw [View.read_apply]
  refine congrArg (X : S600000x128.Idx → EReal) (funext fun a => Fin.ext ?_)
  match a with
  | ⟨0, _⟩ => show win0_2.index t 0 * 4000 + 1 * r.val = 4000 * t.val + r.val; rw [e0]; omega
  | ⟨1, _⟩ => show win0_2.index t 1 * 128 + 1 * k.val = k.val; rw [e1]; omega

/-- So row `r` of that block is row `4000 t + r` of the array as the region finds it. -/
theorem row_blk2 (c : Dev nD) (t : Fin cfg0.N) (r : Fin 4000) :
    row (R := 4000) (iblk m c 2 t) r
      = row (R := 600000) (V m c main_v5) ⟨4000 * t.val + r.val, by have := t.isLt; have hN : cfg0.N = 150 := N_0; have := r.isLt; omega⟩ :=
  funext fun k => read2 c t (V m c main_v5) r k

/-- Window 3 is staged whole: for any contents `X` of its array, its block at every point is `X`. -/
theorem read3 (c : Dev nD) (t : Fin cfg0.N) (X : Buf (Elt Ideal) ((c : Thread nD τ).loc main_arg3)) :
    (((cfg0.win 3).blk t).view.read (Elt Ideal) X : S384x128.Idx → EReal) = (X : S384x128.Idx → EReal) := by
  have e0 : win0_3.index t (0 : Fin 2) = 0 := (idx_facts t).2.2.2.2.2.2.2.2.1
  have e1 : win0_3.index t (1 : Fin 2) = 0 := (idx_facts t).2.2.2.2.2.2.2.2.2.1
  funext y
  rw [View.read_apply]
  refine congrArg (X : S384x128.Idx → EReal) (funext fun a => Fin.ext ?_)
  match a with
  | ⟨0, _⟩ => show win0_3.index t 0 * 384 + 1 * (y 0).val = (y 0).val; rw [e0]; omega
  | ⟨1, _⟩ => show win0_3.index t 1 * 128 + 1 * (y 1).val = (y 1).val; rw [e1]; omega

theorem blk3 (c : Dev nD) (t : Fin cfg0.N) : (iblk m c 3 t : S384x128.Idx → EReal) = (V m c main_arg3 : S384x128.Idx → EReal) :=
  read3 c t (V m c main_arg3)

/-- Window 4 is staged whole: for any contents `X` of its array, its block at every point is `X`. -/
theorem read4 (c : Dev nD) (t : Fin cfg0.N) (X : Buf (Elt Ideal) ((c : Thread nD τ).loc main_arg4)) :
    (((cfg0.win 4).blk t).view.read (Elt Ideal) X : S128.Idx → EReal) = (X : S128.Idx → EReal) := by
  have e0 : win0_4.index t (0 : Fin 1) = 0 := (idx_facts t).2.2.2.2.2.2.2.2.2.2.1
  funext y
  rw [View.read_apply]
  refine congrArg (X : S128.Idx → EReal) (funext fun a => Fin.ext ?_)
  match a with
  | ⟨0, _⟩ => show win0_4.index t 0 * 128 + 1 * (y 0).val = (y 0).val; rw [e0]; omega

theorem blk4 (c : Dev nD) (t : Fin cfg0.N) : (iblk m c 4 t : S128.Idx → EReal) = (V m c main_arg4 : S128.Idx → EReal) :=
  read4 c t (V m c main_arg4)

/-- Window 5 is staged whole: for any contents `X` of its array, its block at every point is `X`. -/
theorem read5 (c : Dev nD) (t : Fin cfg0.N) (X : Buf (Elt Ideal) ((c : Thread nD τ).loc main_arg5)) :
    (((cfg0.win 5).blk t).view.read (Elt Ideal) X : S128x128.Idx → EReal) = (X : S128x128.Idx → EReal) := by
  have e0 : win0_5.index t (0 : Fin 2) = 0 := (idx_facts t).2.2.2.2.2.2.2.2.2.2.2.1
  have e1 : win0_5.index t (1 : Fin 2) = 0 := (idx_facts t).2.2.2.2.2.2.2.2.2.2.2.2.1
  funext y
  rw [View.read_apply]
  refine congrArg (X : S128x128.Idx → EReal) (funext fun a => Fin.ext ?_)
  match a with
  | ⟨0, _⟩ => show win0_5.index t 0 * 128 + 1 * (y 0).val = (y 0).val; rw [e0]; omega
  | ⟨1, _⟩ => show win0_5.index t 1 * 128 + 1 * (y 1).val = (y 1).val; rw [e1]; omega

theorem blk5 (c : Dev nD) (t : Fin cfg0.N) : (iblk m c 5 t : S128x128.Idx → EReal) = (V m c main_arg5 : S128x128.Idx → EReal) :=
  read5 c t (V m c main_arg5)

/-- Window 6 is staged whole: for any contents `X` of its array, its block at every point is `X`. -/
theorem read6 (c : Dev nD) (t : Fin cfg0.N) (X : Buf (Elt Ideal) ((c : Thread nD τ).loc main_arg6)) :
    (((cfg0.win 6).blk t).view.read (Elt Ideal) X : S128.Idx → EReal) = (X : S128.Idx → EReal) := by
  have e0 : win0_6.index t (0 : Fin 1) = 0 := (idx_facts t).2.2.2.2.2.2.2.2.2.2.2.2.2.1
  funext y
  rw [View.read_apply]
  refine congrArg (X : S128.Idx → EReal) (funext fun a => Fin.ext ?_)
  match a with
  | ⟨0, _⟩ => show win0_6.index t 0 * 128 + 1 * (y 0).val = (y 0).val; rw [e0]; omega

theorem blk6 (c : Dev nD) (t : Fin cfg0.N) : (iblk m c 6 t : S128.Idx → EReal) = (V m c main_arg6 : S128.Idx → EReal) :=
  read6 c t (V m c main_arg6)

/-- Window 7 is staged whole: for any contents `X` of its array, its block at every point is `X`. -/
theorem read7 (c : Dev nD) (t : Fin cfg0.N) (X : Buf (Elt Ideal) ((c : Thread nD τ).loc main_arg7)) :
    (((cfg0.win 7).blk t).view.read (Elt Ideal) X : S128x128.Idx → EReal) = (X : S128x128.Idx → EReal) := by
  have e0 : win0_7.index t (0 : Fin 2) = 0 := (idx_facts t).2.2.2.2.2.2.2.2.2.2.2.2.2.2.1
  have e1 : win0_7.index t (1 : Fin 2) = 0 := (idx_facts t).2.2.2.2.2.2.2.2.2.2.2.2.2.2.2.1
  funext y
  rw [View.read_apply]
  refine congrArg (X : S128x128.Idx → EReal) (funext fun a => Fin.ext ?_)
  match a with
  | ⟨0, _⟩ => show win0_7.index t 0 * 128 + 1 * (y 0).val = (y 0).val; rw [e0]; omega
  | ⟨1, _⟩ => show win0_7.index t 1 * 128 + 1 * (y 1).val = (y 1).val; rw [e1]; omega

theorem blk7 (c : Dev nD) (t : Fin cfg0.N) : (iblk m c 7 t : S128x128.Idx → EReal) = (V m c main_arg7 : S128x128.Idx → EReal) :=
  read7 c t (V m c main_arg7)

/-- Window 8 is staged whole: for any contents `X` of its array, its block at every point is `X`. -/
theorem read8 (c : Dev nD) (t : Fin cfg0.N) (X : Buf (Elt Ideal) ((c : Thread nD τ).loc main_arg8)) :
    (((cfg0.win 8).blk t).view.read (Elt Ideal) X : S128.Idx → EReal) = (X : S128.Idx → EReal) := by
  have e0 : win0_8.index t (0 : Fin 1) = 0 := (idx_facts t).2.2.2.2.2.2.2.2.2.2.2.2.2.2.2.2.1
  funext y
  rw [View.read_apply]
  refine congrArg (X : S128.Idx → EReal) (funext fun a => Fin.ext ?_)
  match a with
  | ⟨0, _⟩ => show win0_8.index t 0 * 128 + 1 * (y 0).val = (y 0).val; rw [e0]; omega

theorem blk8 (c : Dev nD) (t : Fin cfg0.N) : (iblk m c 8 t : S128.Idx → EReal) = (V m c main_arg8 : S128.Idx → EReal) :=
  read8 c t (V m c main_arg8)

/-- Window 9 is staged whole: for any contents `X` of its array, its block at every point is `X`. -/
theorem read9 (c : Dev nD) (t : Fin cfg0.N) (X : Buf (Elt Ideal) ((c : Thread nD τ).loc main_arg9)) :
    (((cfg0.win 9).blk t).view.read (Elt Ideal) X : S128.Idx → EReal) = (X : S128.Idx → EReal) := by
  have e0 : win0_9.index t (0 : Fin 1) = 0 := (idx_facts t).2.2.2.2.2.2.2.2.2.2.2.2.2.2.2.2.2.1
  funext y
  rw [View.read_apply]
  refine congrArg (X : S128.Idx → EReal) (funext fun a => Fin.ext ?_)
  match a with
  | ⟨0, _⟩ => show win0_9.index t 0 * 128 + 1 * (y 0).val = (y 0).val; rw [e0]; omega

theorem blk9 (c : Dev nD) (t : Fin cfg0.N) : (iblk m c 9 t : S128.Idx → EReal) = (V m c main_arg9 : S128.Idx → EReal) :=
  read9 c t (V m c main_arg9)

/-- Window 10 is staged whole: for any contents `X` of its array, its block at every point is `X`. -/
theorem read10 (c : Dev nD) (t : Fin cfg0.N) (X : Buf (Elt Ideal) ((c : Thread nD τ).loc main_arg10)) :
    (((cfg0.win 10).blk t).view.read (Elt Ideal) X : S128.Idx → EReal) = (X : S128.Idx → EReal) := by
  have e0 : win0_10.index t (0 : Fin 1) = 0 := (idx_facts t).2.2.2.2.2.2.2.2.2.2.2.2.2.2.2.2.2.2
  funext y
  rw [View.read_apply]
  refine congrArg (X : S128.Idx → EReal) (funext fun a => Fin.ext ?_)
  match a with
  | ⟨0, _⟩ => show win0_10.index t 0 * 128 + 1 * (y 0).val = (y 0).val; rw [e0]; omega

theorem blk10 (c : Dev nD) (t : Fin cfg0.N) : (iblk m c 10 t : S128.Idx → EReal) = (V m c main_arg10 : S128.Idx → EReal) :=
  read10 c t (V m c main_arg10)

/-- The whole result array as the region's arrays determine it: row `e` from row `e` of the edge features and of
    the two gathered arrays, through the weights. -/
abbrev Gfull (c : Dev nD) : S600000x128.Idx → EReal :=
  G (R := 600000) (V m c main_arg0) (V m c main_v4) (V m c main_v5) (V m c main_arg3) (V m c main_arg4) (V m c main_arg5)
    (V m c main_arg6) (V m c main_arg7) (V m c main_arg8) (V m c main_arg9) (V m c main_arg10)

theorem mat_blk3 (c : Dev nD) (t : Fin cfg0.N) : mat (K := 384) (iblk m c 3 t) = mat (K := 384) (V m c main_arg3) := congrArg (mat (K := 384)) (blk3 m c t)
theorem vec_blk4 (c : Dev nD) (t : Fin cfg0.N) : vec (iblk m c 4 t) = vec (V m c main_arg4) := congrArg vec (blk4 m c t)
theorem mat_blk5 (c : Dev nD) (t : Fin cfg0.N) : mat (K := 128) (iblk m c 5 t) = mat (K := 128) (V m c main_arg5) := congrArg (mat (K := 128)) (blk5 m c t)
theorem vec_blk6 (c : Dev nD) (t : Fin cfg0.N) : vec (iblk m c 6 t) = vec (V m c main_arg6) := congrArg vec (blk6 m c t)
theorem mat_blk7 (c : Dev nD) (t : Fin cfg0.N) : mat (K := 128) (iblk m c 7 t) = mat (K := 128) (V m c main_arg7) := congrArg (mat (K := 128)) (blk7 m c t)
theorem vec_blk8 (c : Dev nD) (t : Fin cfg0.N) : vec (iblk m c 8 t) = vec (V m c main_arg8) := congrArg vec (blk8 m c t)
theorem vec_blk9 (c : Dev nD) (t : Fin cfg0.N) : vec (iblk m c 9 t) = vec (V m c main_arg9) := congrArg vec (blk9 m c t)
theorem vec_blk10 (c : Dev nD) (t : Fin cfg0.N) : vec (iblk m c 10 t) = vec (V m c main_arg10) := congrArg vec (blk10 m c t)

/-- The spec on the point's blocks at `(r, j)` is the spec on the whole arrays at `(4000 t + r, j)`: a result row reads
    only its own row of the three streamed arrays. -/
theorem G_blocks (c : Dev nD) (t : Fin cfg0.N) (r : Fin 4000) (j : Fin 128) :
    G (R := 4000) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix2 r j)
      = Gfull m c (ix2 ⟨4000 * t.val + r.val, by have := t.isLt; have hN : cfg0.N = 150 := N_0; have := r.isLt; omega⟩ j) := by
  rw [G_ix2]
  refine Eq.trans ?_ (G_ix2 (R := 600000) (V m c main_arg0) (V m c main_v4) (V m c main_v5) (V m c main_arg3) (V m c main_arg4)
    (V m c main_arg5) (V m c main_arg6) (V m c main_arg7) (V m c main_arg8) (V m c main_arg9) (V m c main_arg10) _ j).symm
  rw [row_blk0 m c t r, row_blk1 m c t r, row_blk2 m c t r, mat_blk3 m c t, vec_blk4 m c t, mat_blk5 m c t, vec_blk6 m c t,
    mat_blk7 m c t, vec_blk8 m c t, vec_blk9 m c t, vec_blk10 m c t]

end Cert.EdgeMlp.KernelBlocks

end
-- ==== Proof.KernelBody.lean ====
/-
  The kernel's body at one grid point, read entry by entry against the specification.

  On a `[4000, 128]` block the body joins the edge, sender and receiver blocks along axis 1 into `[4000, 384]`, runs
  three affine layers (a product into a zero accumulator plus a bias row; the first two followed by a maximum with the
  zero word) and normalises every row: the row's sum over the word of 128 is subtracted, the squared differences are summed
  and divided by the same word, and the entry is `(o - μ) · rsqrt (v + ε) · γ + β`. Every narrowing format change is the
  identity on the extended reals. The theorem `block_eq` says the stored block is the specification's array `G` on the
  same eleven operands, at every index.
-/
import proofs.«427870_j38345468018709_1_alg».proof.Proof.Gen.KernelIdeal.Value
import proofs.«427870_j38345468018709_1_alg».proof.Proof.Spec
import Idealize.ShloMosaic.Lib.Pipeline.Value
import Idealize.ShloMosaic.Lib.ValueIdx
import Idealize.ShloMosaic.PureOps.Ideal.Laws

noncomputable section

open scoped BigOperators

namespace Cert.EdgeMlp.KernelBody

open Cert.KernelIdeal Cert.KernelIdeal.Gen Idealize.ShloMosaic Idealize.ShloMosaic.ValueIdx

/-- The three blocks side by side, as the kernel joins them along axis 1. -/
def catV (x0 x1 x2 : Vec Ideal S4000x128 .f32) : FVec Ideal S4000x384 .f32 :=
  concatenate S4000x384 1 [⟨S4000x128, x0⟩, ⟨S4000x128, shapeCast S4000x128 x1 shapeCasts_S4000x128_S4000x128⟩,
    ⟨S4000x128, shapeCast S4000x128 x2 shapeCasts_S4000x128_S4000x128⟩] concatenates_S4000x128_S4000x128_S4000x128_S4000x384_d1

/-- The joined block at `(r, k)`: entry `k` of the three rows `r` laid side by side — the first block for `k < 128`, the
    second at `k - 128` for `k < 256`, the third at `k - 256` beyond. -/
theorem catV_apply (x0 x1 x2 : Vec Ideal S4000x128 .f32) (r : Fin 4000) (k : Fin 384) :
    catV x0 x1 x2 (ix2 r k) = cat3 (row x0 r) (row x1 r) (row x2 r) k := by
  unfold catV cat3
  by_cases h1 : k.val < 128
  · rw [dif_pos h1]
    refine Eq.trans (concatenate_apply_piece (1 : Fin 2) _ _ (ix2 r k) 0 (by show (0 : Nat) < 3; omega) S4000x128 x0 rfl rfl 0 rfl
      (ix2 r ⟨k.val, h1⟩) (fun b hb => by match b with | ⟨0, _⟩ => rfl | ⟨1, _⟩ => exact absurd rfl hb)
      (by show 0 + k.val = k.val; omega)) ?_
    rfl
  · rw [dif_neg h1]
    by_cases h2 : k.val < 256
    · rw [dif_pos h2]
      refine Eq.trans (concatenate_apply_piece (1 : Fin 2) _ _ (ix2 r k) 1 (by show (1 : Nat) < 3; omega) S4000x128 _ rfl rfl 128 rfl
        (ix2 r ⟨k.val - 128, by omega⟩) (fun b hb => by match b with | ⟨0, _⟩ => rfl | ⟨1, _⟩ => exact absurd rfl hb)
        (by show 128 + (k.val - 128) = k.val; omega)) ?_
      exact shapeCast_apply _ _ _ _ rfl
    · rw [dif_neg h2]
      have hk := k.isLt
      refine Eq.trans (concatenate_apply_piece (1 : Fin 2) _ _ (ix2 r k) 2 (by show (2 : Nat) < 3; omega) S4000x128 _ rfl rfl 256 rfl
        (ix2 r ⟨k.val - 256, by omega⟩) (fun b hb => by match b with | ⟨0, _⟩ => rfl | ⟨1, _⟩ => exact absurd rfl hb)
        (by show 256 + (k.val - 256) = k.val; omega)) ?_
      exact shapeCast_apply _ _ _ _ rfl

/-- The left operand's row coordinate is the output's row. -/
theorem lhs_in_0 (i : S4000x128.Idx) (q : dot_S4000x384_S384x128_S4000x128_1_0_0_1_n_n.contr.Idx) :
    (dot_S4000x384_S384x128_S4000x128_1_0_0_1_n_n.lhsIdx i q 0).val = (i 0).val := by
  unfold DotDims.lhsIdx
  rw [dif_neg (show ¬(0 : Fin S4000x384.rank) ∈ dot_S4000x384_S384x128_S4000x128_1_0_0_1_n_n.lhsBatch by decide), dif_pos (show (0 : Fin S4000x384.rank) ∈ dot_S4000x384_S384x128_S4000x128_1_0_0_1_n_n.lhsNonContracting by decide)]
  rfl
/-- The left operand's column coordinate is the contracted coordinate. -/
theorem lhs_in_1 (i : S4000x128.Idx) (q : dot_S4000x384_S384x128_S4000x128_1_0_0_1_n_n.contr.Idx) :
    (dot_S4000x384_S384x128_S4000x128_1_0_0_1_n_n.lhsIdx i q 1).val = (q ⟨0, by decide⟩).val :=
  dot_S4000x384_S384x128_S4000x128_1_0_0_1_n_n.lhsIdx_val_of_single rfl i q
/-- The right operand's row coordinate is the contracted coordinate. -/
theorem rhs_in_0 (i : S4000x128.Idx) (q : dot_S4000x384_S384x128_S4000x128_1_0_0_1_n_n.contr.Idx) :
    (dot_S4000x384_S384x128_S4000x128_1_0_0_1_n_n.rhsIdx i q 0).val = (q ⟨0, by decide⟩).val :=
  dot_S4000x384_S384x128_S4000x128_1_0_0_1_n_n.rhsIdx_val_of_single rfl i q
/-- The right operand's column coordinate is the output's column. -/
theorem rhs_in_1 (i : S4000x128.Idx) (q : dot_S4000x384_S384x128_S4000x128_1_0_0_1_n_n.contr.Idx) :
    (dot_S4000x384_S384x128_S4000x128_1_0_0_1_n_n.rhsIdx i q 1).val = (i 1).val := by
  unfold DotDims.rhsIdx
  rw [dif_neg (show ¬(1 : Fin S384x128.rank) ∈ dot_S4000x384_S384x128_S4000x128_1_0_0_1_n_n.rhsBatch by decide), dif_pos (show (1 : Fin S384x128.rank) ∈ dot_S4000x384_S384x128_S4000x128_1_0_0_1_n_n.rhsNonContracting by decide)]
  rfl

/-- The product into a zero accumulator at `(r, j)`: the sum over the 384 contracted coordinates `k` of the left
    operand at `(r, k)` times the right at `(k, j)`. -/
theorem mm_in_apply {φ₁ φ₂ : FTy} (lhs : FVec Ideal S4000x384 φ₁) (rhs : FVec Ideal S384x128 φ₂) (r : Fin 4000) (j : Fin 128) :
    matmul dot_S4000x384_S384x128_S4000x128_1_0_0_1_n_n none lhs rhs (constant S4000x128 .f32 0x00000000#32) (ix2 r j)
      = ∑ k : Fin 384, lhs (ix2 r k) * rhs (ix2 k j) := by
  simp only [matmul]
  rw [Ideal.matmul_constant_zero_apply, ← Equiv.sum_comp (contrEquiv1 dot_S4000x384_S384x128_S4000x128_1_0_0_1_n_n 384 rfl rfl).symm]
  refine Finset.sum_congr rfl fun k _ => ?_
  have hk := contrEquiv1_symm_val dot_S4000x384_S384x128_S4000x128_1_0_0_1_n_n 384 rfl rfl k
  have el : dot_S4000x384_S384x128_S4000x128_1_0_0_1_n_n.lhsIdx (ix2 r j) ((contrEquiv1 dot_S4000x384_S384x128_S4000x128_1_0_0_1_n_n 384 rfl rfl).symm k) = ix2 r k := funext fun a => Fin.ext (by
    match a with
    | ⟨0, _⟩ => exact lhs_in_0 _ _
    | ⟨1, _⟩ => exact (lhs_in_1 _ _).trans hk)
  have er : dot_S4000x384_S384x128_S4000x128_1_0_0_1_n_n.rhsIdx (ix2 r j) ((contrEquiv1 dot_S4000x384_S384x128_S4000x128_1_0_0_1_n_n 384 rfl rfl).symm k) = ix2 k j := funext fun a => Fin.ext (by
    match a with
    | ⟨0, _⟩ => exact (rhs_in_0 _ _).trans hk
    | ⟨1, _⟩ => exact rhs_in_1 _ _)
  rw [el, er]

/-- The left operand's row coordinate is the output's row. -/
theorem lhs_hid_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column coordinate is the contracted coordinate. -/
theorem lhs_hid_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row coordinate is the contracted coordinate. -/
theorem rhs_hid_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- The right operand's column coordinate is the output's column. -/
theorem rhs_hid_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product into a zero accumulator at `(r, j)`: the sum over the 128 contracted coordinates `k` of the left
    operand at `(r, k)` times the right at `(k, j)`. -/
theorem mm_hid_apply {φ₁ φ₂ : FTy} (lhs : FVec Ideal S4000x128 φ₁) (rhs : FVec Ideal S128x128 φ₂) (r : Fin 4000) (j : Fin 128) :
    matmul dot_S4000x128_S128x128_S4000x128_1_0_0_1_n_n none lhs rhs (constant S4000x128 .f32 0x00000000#32) (ix2 r j)
      = ∑ k : Fin 128, lhs (ix2 r k) * rhs (ix2 k j) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r j) ((contrEquiv1 dot_S4000x128_S128x128_S4000x128_1_0_0_1_n_n 128 rfl rfl).symm k) = ix2 r k := funext fun a => Fin.ext (by
    match a with
    | ⟨0, _⟩ => exact lhs_hid_0 _ _
    | ⟨1, _⟩ => exact (lhs_hid_1 _ _).trans hk)
  have er : dot_S4000x128_S128x128_S4000x128_1_0_0_1_n_n.rhsIdx (ix2 r j) ((contrEquiv1 dot_S4000x128_S128x128_S4000x128_1_0_0_1_n_n 128 rfl rfl).symm k) = ix2 k j := funext fun a => Fin.ext (by
    match a with
    | ⟨0, _⟩ => exact (rhs_hid_0 _ _).trans hk
    | ⟨1, _⟩ => exact rhs_hid_1 _ _)
  rw [el, er]

/-- A `[128]` vector laid as one row and repeated down the 4000 rows, at `(r, j)`: the vector at `j`. -/
theorem bias_apply (b : Vec Ideal S128 .f32) (r : Fin 4000) (j : Fin 128) :
    broadcastTo S4000x128 (shapeCast S1x128 b shapeCasts_S128_S1x128) broadcasts_S1x128_S4000x128 (ix2 r j) = b (ix1 j) := by
  refine (broadcastTo_apply _ _ (ix2 r j) (ix2 (⟨0, by decide⟩ : Fin 1) j) (fun a => match a with
    | ⟨0, _⟩ => by show 0 = (if (1 : Nat) = 1 then 0 else r.val); rw [if_pos rfl]
    | ⟨1, _⟩ => by show j.val = (if (128 : Nat) = 1 then 0 else j.val); rw [if_neg (by decide)])).trans ?_
  exact shapeCast_apply _ _ (ix2 (⟨0, by decide⟩ : Fin 1) j) (ix1 j)
    (by rw [Shape.rowMajor_val_one, Shape.rowMajor_val_two]; show j.val = 0 * 128 + j.val; omega)

/-- A row's sum: the reduction along axis 1 at row `r` is the sum of the 128 entries of that row. -/
theorem rowsum_apply (src : FVec Ideal S4000x128 .f32) (r : Fin 4000) :
    multiReduction (F := Ideal) .add [1] S4000 src 0x00000000#32 reduces_S4000x128_S4000 (.inl rfl) rfl (ix1 r)
      = ∑ k : Fin 128, src (ix2 r k) := by
  refine (Ideal.multiReduction_add_single src _ reduces_S4000x128_S4000 (.inl rfl) rfl (ix1 r)).trans ?_
  refine Finset.sum_congr rfl fun k _ => congrArg src (funext fun a => Fin.ext ?_)
  match a with
  | ⟨0, _⟩ => rfl
  | ⟨1, _⟩ => rfl

/-- The row sum over the word of 128, spread back along the row: at `(r, k)` it is row `r`'s sum divided by that word. -/
theorem rowmean_apply (src : FVec Ideal S4000x128 .f32) (r : Fin 4000) (k : Fin 128) :
    broadcastTo S4000x128 (divf (shapeCast S4000x1 (multiReduction (F := Ideal) .add [1] S4000 src 0x00000000#32 reduces_S4000x128_S4000 (.inl rfl) rfl) shapeCasts_S4000_S4000x1) (k0_pay4 (F := Ideal))) broadcasts_S4000x1_S4000x128 (ix2 r k)
      = Ideal.div (∑ k' : Fin 128, src (ix2 r k')) (Ideal.ofBits .f32 0x43000000#32) := by
  refine (broadcastTo_apply _ _ (ix2 r k) (ix2 r (⟨0, by decide⟩ : Fin 1)) (fun a => match a with
    | ⟨0, _⟩ => by show r.val = (if (4000 : Nat) = 1 then 0 else r.val); rw [if_neg (by decide)]
    | ⟨1, _⟩ => by show 0 = (if (1 : Nat) = 1 then 0 else k.val); rw [if_pos rfl])).trans ?_
  show Ideal.div (shapeCast S4000x1 _ shapeCasts_S4000_S4000x1 (ix2 r (⟨0, by decide⟩ : Fin 1))) (Ideal.ofBits .f32 0x43000000#32) = _
  refine congrArg (fun s => Ideal.div s (Ideal.ofBits .f32 0x43000000#32)) ?_
  refine (shapeCast_apply _ _ (ix2 r (⟨0, by decide⟩ : Fin 1)) (ix1 r)
    (by rw [Shape.rowMajor_val_one, Shape.rowMajor_val_two]; show r.val = r.val * 1 + 0; omega)).trans ?_
  exact rowsum_apply src r

/-- The first layer on a `[4000, 384]` block: product with the `[384, 128]` weights into zero, plus the bias row. -/
def linIn (x : FVec Ideal S4000x384 .f32) (W : Vec Ideal S384x128 .f32) (b : Vec Ideal S128 .f32) : FVec Ideal S4000x128 .f32 :=
  addf (matmul dot_S4000x384_S384x128_S4000x128_1_0_0_1_n_n none (truncf .bf16 x bitsLt_bf16_f32) (truncf .bf16 W bitsLt_bf16_f32)
      (constant S4000x128 .f32 0x00000000#32))
    (broadcastTo S4000x128 (shapeCast S1x128 b shapeCasts_S128_S1x128) broadcasts_S1x128_S4000x128)

/-- A later layer on a `[4000, 128]` block: product with the `[128, 128]` weights into zero, plus the bias row. -/
def linHid (x : FVec Ideal S4000x128 .f32) (W : Vec Ideal S128x128 .f32) (b : Vec Ideal S128 .f32) : FVec Ideal S4000x128 .f32 :=
  addf (matmul dot_S4000x128_S128x128_S4000x128_1_0_0_1_n_n none (truncf .bf16 x bitsLt_bf16_f32) (truncf .bf16 W bitsLt_bf16_f32)
      (constant S4000x128 .f32 0x00000000#32))
    (broadcastTo S4000x128 (shapeCast S1x128 b shapeCasts_S128_S1x128) broadcasts_S1x128_S4000x128)

/-- The maximum with the zero word at every entry of a block. -/
def reluV (v : FVec Ideal S4000x128 .f32) : FVec Ideal S4000x128 .f32 :=
  maximumf v (broadcast S4000x128 (Scalar.ofBits (F := Ideal) .f32 0x00000000#32))

/-- The kernel's three-layer value is the three layers composed on the joined block (the narrowing format changes are
    kept inside the layers; on the extended reals they change nothing). -/
theorem pay2_eq (P0 P1 P2 : Vec Ideal S4000x128 .f32) (P3 : Vec Ideal S384x128 .f32) (P4 : Vec Ideal S128 .f32)
    (P5 : Vec Ideal S128x128 .f32) (P6 : Vec Ideal S128 .f32) (P7 : Vec Ideal S128x128 .f32) (P8 : Vec Ideal S128 .f32) :
    k0_pay2 (F := Ideal) P0 P1 P2 P3 P4 P5 P6 P7 P8
      = linHid (reluV (linHid (reluV (linIn (catV P0 P1 P2) P3 P4)) P5 P6)) P7 P8 := rfl

/-- The first layer at `(r, j)`: the affine layer of the specification on row `r` of the block. -/
theorem linIn_apply (x : FVec Ideal S4000x384 .f32) (W : Vec Ideal S384x128 .f32) (b : Vec Ideal S128 .f32) (r : Fin 4000) (j : Fin 128) :
    linIn x W b (ix2 r j) = dense (fun k => x (ix2 r k)) (mat W) (vec b) j := by
  show matmul dot_S4000x384_S384x128_S4000x128_1_0_0_1_n_n none (truncf .bf16 x bitsLt_bf16_f32) (truncf .bf16 W bitsLt_bf16_f32)
      (constant S4000x128 .f32 0x00000000#32) (ix2 r j)
    + broadcastTo S4000x128 (shapeCast S1x128 b shapeCasts_S128_S1x128) broadcasts_S1x128_S4000x128 (ix2 r j) = _
  rw [mm_in_apply, bias_apply]
  rfl

/-- A later layer at `(r, j)`: the affine layer of the specification on row `r` of the block. -/
theorem linHid_apply (x : FVec Ideal S4000x128 .f32) (W : Vec Ideal S128x128 .f32) (b : Vec Ideal S128 .f32) (r : Fin 4000) (j : Fin 128) :
    linHid x W b (ix2 r j) = dense (fun k => x (ix2 r k)) (mat W) (vec b) j := by
  show matmul dot_S4000x128_S128x128_S4000x128_1_0_0_1_n_n none (truncf .bf16 x bitsLt_bf16_f32) (truncf .bf16 W bitsLt_bf16_f32)
      (constant S4000x128 .f32 0x00000000#32) (ix2 r j)
    + broadcastTo S4000x128 (shapeCast S1x128 b shapeCasts_S128_S1x128) broadcasts_S1x128_S4000x128 (ix2 r j) = _
  rw [mm_hid_apply, bias_apply]
  rfl

/-- The three layers at `(r, j)`: the specification's `mlp` on row `r` of the three input blocks. -/
theorem pay2_apply (P0 P1 P2 : Vec Ideal S4000x128 .f32) (P3 : Vec Ideal S384x128 .f32) (P4 : Vec Ideal S128 .f32)
    (P5 : Vec Ideal S128x128 .f32) (P6 : Vec Ideal S128 .f32) (P7 : Vec Ideal S128x128 .f32) (P8 : Vec Ideal S128 .f32)
    (r : Fin 4000) (j : Fin 128) :
    k0_pay2 (F := Ideal) P0 P1 P2 P3 P4 P5 P6 P7 P8 (ix2 r j)
      = mlp (row P0 r) (row P1 r) (row P2 r) (mat P3) (vec P4) (mat P5) (vec P6) (mat P7) (vec P8) j := by
  rw [pay2_eq, linHid_apply]
  unfold mlp
  refine congrArg (fun x => dense x (mat P7) (vec P8) j) (funext fun k2 => ?_)
  show max (linHid (reluV (linIn (catV P0 P1 P2) P3 P4)) P5 P6 (ix2 r k2)) (Ideal.ofBits .f32 0x00000000#32) = relu _ k2
  rw [linHid_apply]
  unfold relu
  refine congrArg (fun x => max (dense x (mat P5) (vec P6) k2) (Ideal.ofBits .f32 0x00000000#32)) (funext fun k1 => ?_)
  show max (linIn (catV P0 P1 P2) P3 P4 (ix2 r k1)) (Ideal.ofBits .f32 0x00000000#32) = _
  rw [linIn_apply]
  refine congrArg (fun x => max (dense x (mat P3) (vec P4) k1) (Ideal.ofBits .f32 0x00000000#32)) (funext fun k0 => ?_)
  exact catV_apply P0 P1 P2 r k0

/-- Row sums over the word of 128, spread back along each row. -/
def meanV (src : FVec Ideal S4000x128 .f32) : FVec Ideal S4000x128 .f32 :=
  broadcastTo S4000x128 (divf (shapeCast S4000x1 (multiReduction (F := Ideal) .add [1] S4000 src 0x00000000#32 reduces_S4000x128_S4000 (.inl rfl) rfl) shapeCasts_S4000_S4000x1) (k0_pay4 (F := Ideal))) broadcasts_S4000x1_S4000x128

/-- At `(r, k)` it is row `r`'s mean as the specification writes it. -/
theorem meanV_apply (src : FVec Ideal S4000x128 .f32) (r : Fin 4000) (k : Fin 128) :
    meanV src (ix2 r k) = mean (fun k' => src (ix2 r k')) := rowmean_apply src r k

/-- The normalisation tail of the stored block at `(r, j)`, over ANY `[4000, 128]` value `src` in place of the three
    layers' result: it is the specification's `lnorm` of row `r` of `src`. The two reductions are row sums, the
    mean is spread back along the row before the subtraction, and the remaining operations act entry by entry. -/
theorem tail_apply (src : FVec Ideal S4000x128 .f32) (g β : Vec Ideal S128 .f32) (r : Fin 4000) (j : Fin 128) :
    FloatOps.addf (FloatOps.mulf (FloatOps.mulf (FloatOps.subf (src (Value.ix11_0 (ix2 r j)))
        (FloatOps.divf (multiReduction (F := Ideal) .add [1] S4000 src 0x00000000#32 reduces_S4000x128_S4000 (.inl rfl) rfl (Value.ix11_1 (ix2 r j)))
          (k0_pay4 (F := Ideal) (Value.ix11_2 (ix2 r j)))))
        (FloatOps.rsqrt (FloatOps.addf (FloatOps.divf
          (multiReduction (F := Ideal) .add [1] S4000 (mulf (subf src (meanV src)) (subf src (meanV src))) 0x00000000#32 reduces_S4000x128_S4000 (.inl rfl) rfl (Value.ix11_3 (ix2 r j)))
          (Scalar.ofBits (F := Ideal) .f32 0x43000000#32)) (Scalar.ofBits (F := Ideal) .f32 0x3727C5AC#32))))
        (g (Value.ix11_4 (ix2 r j)))) (β (Value.ix11_5 (ix2 r j)))
      = lnorm (fun k => src (ix2 r k)) (vec g) (vec β) j := by
  have i0 : Value.ix11_0 (ix2 r j) = ix2 r j := funext fun a => by
    match a with
    | ⟨0, _⟩ => rfl
    | ⟨1, _⟩ => rfl
  have i1 : Value.ix11_1 (ix2 r j) = ix1 r := funext fun a => by
    match a with
    | ⟨0, _⟩ => rfl
  have i3 : Value.ix11_3 (ix2 r j) = ix1 r := funext fun a => by
    match a with
    | ⟨0, _⟩ => rfl
  have i4 : Value.ix11_4 (ix2 r j) = ix1 j := funext fun a => by
    match a with
    | ⟨0, _⟩ => rfl
  have i5 : Value.ix11_5 (ix2 r j) = ix1 j := funext fun a => by
    match a with
    | ⟨0, _⟩ => rfl
  have hsq : ∑ k : Fin 128, (mulf (subf src (meanV src)) (subf src (meanV src))) (ix2 r k)
      = ∑ k : Fin 128, (src (ix2 r k) - mean (fun k' => src (ix2 r k'))) * (src (ix2 r k) - mean (fun k' => src (ix2 r k'))) :=
    Finset.sum_congr rfl fun k _ => by
      show (src (ix2 r k) - meanV src (ix2 r k)) * (src (ix2 r k) - meanV src (ix2 r k)) = _
      rw [meanV_apply]
  rw [i0, i1, i3, i4, i5, rowsum_apply, rowsum_apply, hsq]
  rfl

/-- THE BLOCK THE KERNEL LEAVES, entry by entry, is the specification's array on the same eleven operands: the three
    layers at `(r, j)` are `mlp` of the three input rows, and the tail normalises that row. -/
theorem block_eq (P0 P1 P2 : Vec Ideal S4000x128 .f32) (P3 : Vec Ideal S384x128 .f32) (P4 : Vec Ideal S128 .f32)
    (P5 : Vec Ideal S128x128 .f32) (P6 : Vec Ideal S128 .f32) (P7 : Vec Ideal S128x128 .f32) (P8 P9 P10 : Vec Ideal S128 .f32)
    (y : S4000x128.Idx) :
    Cert.KernelIdeal.Value.E11 (F := Ideal) P0 P1 P2 P3 P4 P5 P6 P7 P8 P9 P10 y
      = Cert.EdgeMlp.G (R := 4000) P0 P1 P2 P3 P4 P5 P6 P7 P8 P9 P10 y := by
  obtain ⟨r, j, rfl⟩ : ∃ (r : Fin 4000) (j : Fin 128), y = ix2 r j := ⟨y 0, y 1, eq_ix2 y⟩
  rw [G_ix2]
  refine (tail_apply (k0_pay2 (F := Ideal) P0 P1 P2 P3 P4 P5 P6 P7 P8) P9 P10 r j).trans ?_
  exact congrArg (fun Y => lnorm Y (vec P9) (vec P10) j) (funext fun k => pay2_apply P0 P1 P2 P3 P4 P5 P6 P7 P8 r k)

end Cert.EdgeMlp.KernelBody

end
-- ==== Proof.KernelRun.lean ====
/-
  The kernel's whole run: the result array after the 150 points.

  Point `t` writes back rows `4000 t … 4000 t + 3999` of the result, each row the specification's function of the
  same row of the edge features and of the two gathered arrays. The 150 row blocks tile the 600000 rows (row `e`
  lies in block `e / 4000`), so after the run the result array is the specification's whole array of the arrays the
  region found, and the argument arrays are unchanged.
-/
import proofs.«427870_j38345468018709_1_alg».proof.Proof.KernelBlocks
import proofs.«427870_j38345468018709_1_alg».proof.Proof.KernelBody

noncomputable section

open Idealize.ShloMosaic Idealize.ShloMosaic.TcCoe Idealize.SL.Sem Idealize.ShloMosaic.ValueIdx
open Idealize.ShloMosaic.Pipeline (Dat)

namespace Cert.EdgeMlp.KernelRun

open Cert.KernelIdeal Cert.KernelIdeal.Gen Cert.KernelIdeal.Value Cert.EdgeMlp.KernelBlocks

variable (m : (ℓ : Loc nD τ sig) → Buf (Elt Ideal) ℓ) (ρ : Dev nD → PrngReg)

/-- Entry `(r, j)` of the output block at point `t` sits at `(4000 t + r, j)` of the result array. -/
theorem emb_out (t : Fin cfg0.N) (r : Fin 4000) (j : Fin 128) :
    (ix2 ⟨4000 * t.val + r.val, by have := t.isLt; have hN : cfg0.N = 150 := N_0; have := r.isLt; omega⟩ j : S600000x128.Idx)
      = ((cfg0.win 11).blk t).view.emb (ix2 r j) := by
  have e0 : win0_11.index t (0 : Fin 2) = t.val := (idx_facts t).1
  have e1 : win0_11.index t (1 : Fin 2) = 0 := (idx_facts t).2.1
  funext a
  apply Fin.ext
  match a with
  | ⟨0, _⟩ => show 4000 * t.val + r.val = win0_11.index t 0 * 4000 + 1 * r.val; rw [e0]; omega
  | ⟨1, _⟩ => show j.val = win0_11.index t 1 * 128 + 1 * j.val; rw [e1]; omega

/-- What point `t` writes back is block `t` of the specification's whole array. -/
theorem flushed_eq (c : Dev nD) (t : Fin cfg0.N) :
    (dats m 0 c).flushed 11 t = ((cfg0.win 11).blk t).view.read (Elt Ideal) (Gfull m c) := by
  rw [flushed11]
  funext y
  obtain ⟨r, j, rfl⟩ : ∃ (r : Fin 4000) (j : Fin 128), y = ix2 r j := ⟨y 0, y 1, eq_ix2 y⟩
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
      = Gfull m c (((cfg0.win 11).blk t).view.emb (ix2 r j))
  refine (out_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)).trans ?_
  refine (Cert.EdgeMlp.KernelBody.block_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)).trans ?_
  refine (G_blocks m c t r j).trans ?_
  exact congrArg (Gfull m c) (emb_out t r j)

/-- An index of the result array is in point `t`'s block iff each coordinate is in the block's range on its axis. -/
theorem mem_blk (t : Fin cfg0.N) (i : S600000x128.Idx) :
    i ∈ ((cfg0.win 11).blk t).view.set ↔ ∀ a : Fin 2, win0_11.index t a * S4000x128.size a ≤ (i a).val ∧ (i a).val < win0_11.index t a * S4000x128.size a + S4000x128.size a := by
  show i ∈ ((View.whole main_v6).slice (win0_11.rect t)).set ↔ _
  rw [View.set_slice_whole, Rect.mem_set_unit]
  exact Iff.rfl

/-- Every row of the result lies in some point's block: row `e` in block `e / 4000`. -/
theorem cover (i : S600000x128.Idx) :
    ∃ t : Fin cfg0.N, (cfg0.win 11).flush t = true ∧ i ∈ ((cfg0.win 11).blk t).view.set := by
  have hN : cfg0.N = 150 := N_0
  have hi0 : (i 0).val < 600000 := (i 0).isLt
  have hi1 : (i 1).val < 128 := (i 1).isLt
  let t : Fin cfg0.N := ⟨(i 0).val / 4000, by rw [hN]; omega⟩
  have e0 : win0_11.index t (0 : Fin 2) = (i 0).val / 4000 := (idx_facts t).1
  have e1 : win0_11.index t (1 : Fin 2) = 0 := (idx_facts t).2.1
  refine ⟨t, flush0_11 t, ?_⟩
  rw [mem_blk]
  intro a
  match a with
  | ⟨0, _⟩ => show win0_11.index t (0 : Fin 2) * 4000 ≤ (i 0).val ∧ (i 0).val < win0_11.index t (0 : Fin 2) * 4000 + 4000; rw [e0]; omega
  | ⟨1, _⟩ => show win0_11.index t (1 : Fin 2) * 128 ≤ (i 1).val ∧ (i 1).val < win0_11.index t (1 : Fin 2) * 128 + 128; rw [e1]; omega

/-- The result array after the run is the specification's whole array of the arrays the region found. -/
theorem final (c : Dev nD) : (dats m 0 c).arrAt 11 cfg0.N = Gfull m c :=
  (dats m 0 c).arrAt_eq_of_cover 11 (Gfull m c) (fun t _ => flushed_eq m c t) cover

/-- The run, read: the result at the specification's array, every argument unchanged. -/
theorem run : θ_run defs (onTc (τ := τ) (main (F := Ideal))) ⟨m, fun _ => 0, ρ⟩ fun r => ∀ c : Dev nD,
      r.2.mem ((c : Thread nD τ).loc main_v6) = Gfull m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.EdgeMlp.KernelRun

end
-- ==== Proof.RefBody.lean ====
/-
  The reference program, read one entry at a time, is the specification's function `G`.

  Entry `(e, j)` of the result. The row of edge `e` fed to the first layer is the edge's own 128 features followed by
  the two gathered rows (coordinates 0–127, 128–255 and 256–383 of the joined axis). Each layer is the sum over the
  contracted coordinate of the row times the weight column, plus the bias entry; the first two are followed by the
  maximum with the zero word. A row sum starts from the zero word, which is the real zero, so it is the plain sum over
  the row's 128 entries; the quotient by the word of 128 and the reciprocal square root are the extended reals' own.
  The two gathered arrays are never opened: they are arguments of `G`.
-/
import proofs.«427870_j38345468018709_1_alg».proof.Proof.Gen.ReferenceIdeal.Read
import proofs.«427870_j38345468018709_1_alg».proof.Proof.Spec
import Idealize.ShloMosaic.Lib.Pipeline.Value
import Idealize.ShloMosaic.Lib.ValueIdx
import Idealize.ShloMosaic.PureOps.Ideal.Laws

noncomputable section

open scoped BigOperators

namespace Cert.EdgeMlp.RefBody

open Cert.ReferenceIdeal Cert.ReferenceIdeal.Gen Cert.ReferenceIdeal.Read Idealize.ShloMosaic Idealize.ShloMosaic.ValueIdx

variable (x0 : S600000x128.Idx → EReal) (x1 : S50000x128.Idx → EReal) (x2 : S2x600000.Idx → BitVec 32)
  (x3 : S384x128.Idx → EReal) (x4 : S128.Idx → EReal) (x5 : S128x128.Idx → EReal) (x6 : S128.Idx → EReal)
  (x7 : S128x128.Idx → EReal) (x8 x9 x10 : S128.Idx → EReal)

/-! ## Index functions at explicit coordinates -/

theorem lidx19 (e : Fin 600000) (j : Fin 128) (k : Fin 384) : lidx_main_v19 (ix2 e j) k = ix2 e k :=
  funext fun a => by match a with | ⟨0, _⟩ => rfl | ⟨1, _⟩ => rfl
theorem ridx19 (e : Fin 600000) (j : Fin 128) (k : Fin 384) : ridx_main_v19 (ix2 e j) k = ix2 k j :=
  funext fun a => by match a with | ⟨0, _⟩ => rfl | ⟨1, _⟩ => rfl
theorem bias21 (e : Fin 600000) (j : Fin 128) : idx_main_v20 (idx_main_v21 (ix2 e j)) = ix1 j :=
  funext fun a => by match a with | ⟨0, _⟩ => rfl

/-! ## The concatenated row -/

theorem cat_apply (e : Fin 600000) (k : Fin 384) :
    val_main_v18 (F := Ideal) x0 x1 x2 (ix2 e k)
      = cat3 (row x0 e) (row (val_main_v10 (F := Ideal) x1 x2) e) (row (val_main_v17 (F := Ideal) x1 x2) e) k := by
  unfold val_main_v18
  generalize val_main_v10 (F := Ideal) x1 x2 = s
  generalize val_main_v17 (F := Ideal) x1 x2 = r
  unfold cat3
  by_cases h : k.val < 128
  · rw [dif_pos h]
    exact concatenate_apply_piece (1 : Fin 2) [⟨S600000x128, x0⟩, ⟨S600000x128, s⟩, ⟨S600000x128, r⟩] _ (ix2 e k) 0 (by show (0 : Nat) < 3; omega) S600000x128 x0 rfl rfl 0 rfl
      (ix2 e ⟨k.val, h⟩)
      (fun b hb => by match b, hb with | ⟨0, _⟩, _ => rfl | ⟨1, _⟩, hb => exact absurd rfl hb)
      (Nat.zero_add _)
  · rw [dif_neg h]
    by_cases h2 : k.val < 256
    · rw [dif_pos h2]
      exact concatenate_apply_piece (1 : Fin 2) [⟨S600000x128, x0⟩, ⟨S600000x128, s⟩, ⟨S600000x128, r⟩] _ (ix2 e k) 1 (by show (1 : Nat) < 3; omega) S600000x128 s rfl rfl 128 rfl
        (ix2 e ⟨k.val - 128, by omega⟩)
        (fun b hb => by match b, hb with | ⟨0, _⟩, _ => rfl | ⟨1, _⟩, hb => exact absurd rfl hb)
        (by show 128 + (k.val - 128) = k.val; omega)
    · rw [dif_neg h2]
      exact concatenate_apply_piece (1 : Fin 2) [⟨S600000x128, x0⟩, ⟨S600000x128, s⟩, ⟨S600000x128, r⟩] _ (ix2 e k) 2 (by show (2 : Nat) < 3; omega) S600000x128 r rfl rfl 256 rfl
        (ix2 e ⟨k.val - 256, by have := k.isLt; omega⟩)
        (fun b hb => by match b, hb with | ⟨0, _⟩, _ => rfl | ⟨1, _⟩, hb => exact absurd rfl hb)
        (by show 256 + (k.val - 256) = k.val; omega)

/-! ## The three layers -/

theorem layer1 (e : Fin 600000) (j : Fin 128) :
    val_main_v23 (F := Ideal) x0 x1 x2 x3 x4 (ix2 e j)
      = relu (dense (cat3 (row x0 e) (row (val_main_v10 (F := Ideal) x1 x2) e) (row (val_main_v17 (F := Ideal) x1 x2) e))
          (mat x3) (vec x4)) j := by
  rw [val_main_v23_apply, val_main_v22_apply, val_main_v19_apply, val_main_v21_apply, val_main_v20_apply,
    val_main_call0_v0_apply, val_main_call0_cst_apply, bias21]
  rw [Finset.sum_congr rfl (fun k _ => by rw [lidx19, ridx19, cat_apply])]
  rfl

theorem lidx24 (e : Fin 600000) (j k : Fin 128) : lidx_main_v24 (ix2 e j) k = ix2 e k :=
  funext fun a => by match a with | ⟨0, _⟩ => rfl | ⟨1, _⟩ => rfl
theorem ridx24 (e : Fin 600000) (j k : Fin 128) : ridx_main_v24 (ix2 e j) k = ix2 k j :=
  funext fun a => by match a with | ⟨0, _⟩ => rfl | ⟨1, _⟩ => rfl
theorem bias26 (e : Fin 600000) (j : Fin 128) : idx_main_v25 (idx_main_v26 (ix2 e j)) = ix1 j :=
  funext fun a => by match a with | ⟨0, _⟩ => rfl
theorem lidx29 (e : Fin 600000) (j k : Fin 128) : lidx_main_v29 (ix2 e j) k = ix2 e k :=
  funext fun a => by match a with | ⟨0, _⟩ => rfl | ⟨1, _⟩ => rfl
theorem ridx29 (e : Fin 600000) (j k : Fin 128) : ridx_main_v29 (ix2 e j) k = ix2 k j :=
  funext fun a => by match a with | ⟨0, _⟩ => rfl | ⟨1, _⟩ => rfl
theorem bias31 (e : Fin 600000) (j : Fin 128) : idx_main_v30 (idx_main_v31 (ix2 e j)) = ix1 j :=
  funext fun a => by match a with | ⟨0, _⟩ => rfl

theorem layer2 (e : Fin 600000) (j : Fin 128) :
    val_main_v28 (F := Ideal) x0 x1 x2 x3 x4 x5 x6 (ix2 e j)
      = relu (dense (relu (dense (cat3 (row x0 e) (row (val_main_v10 (F := Ideal) x1 x2) e) (row (val_main_v17 (F := Ideal) x1 x2) e))
          (mat x3) (vec x4))) (mat x5) (vec x6)) j := by
  rw [val_main_v28_apply, val_main_v27_apply, val_main_v24_apply, val_main_v26_apply, val_main_v25_apply,
    val_main_call1_v0_apply, val_main_call1_cst_apply, bias26]
  rw [Finset.sum_congr rfl (fun k _ => by rw [lidx24, ridx24, layer1])]
  rfl

/-- The three layers' output row of edge `e`. -/
abbrev Y (e : Fin 600000) : Fin 128 → EReal :=
  mlp (row x0 e) (row (val_main_v10 (F := Ideal) x1 x2) e) (row (val_main_v17 (F := Ideal) x1 x2) e)
    (mat x3) (vec x4) (mat x5) (vec x6) (mat x7) (vec x8)

theorem layer3 (e : Fin 600000) (j : Fin 128) :
    val_main_v32 (F := Ideal) x0 x1 x2 x3 x4 x5 x6 x7 x8 (ix2 e j) = Y x0 x1 x2 x3 x4 x5 x6 x7 x8 e j := by
  rw [val_main_v32_apply, val_main_v29_apply, val_main_v31_apply, val_main_v30_apply, bias31]
  rw [Finset.sum_congr rfl (fun k _ => by rw [lidx29, ridx29, layer2])]
  rfl

/-! ## The normalisation -/

theorem i33 (e : Fin 600000) (k : Fin 128) : idx_main_v33 (ix1 e) k = ix2 e k :=
  funext fun a => by match a with | ⟨0, _⟩ => rfl | ⟨1, _⟩ => rfl
theorem i40 (e : Fin 600000) (k : Fin 128) : idx_main_v40 (ix1 e) k = ix2 e k :=
  funext fun a => by match a with | ⟨0, _⟩ => rfl | ⟨1, _⟩ => rfl
theorem i34 (e : Fin 600000) : idx_main_v34 (ix2 e (0 : Fin 1)) = ix1 e :=
  funext fun a => by match a with | ⟨0, _⟩ => rfl
theorem i41 (e : Fin 600000) : idx_main_v41 (ix2 e (0 : Fin 1)) = ix1 e :=
  funext fun a => by match a with | ⟨0, _⟩ => rfl
theorem i37 (e : Fin 600000) (j : Fin 128) : idx_main_v37 (ix2 e j) = ix2 e (0 : Fin 1) :=
  funext fun a => by match a with | ⟨0, _⟩ => rfl | ⟨1, _⟩ => rfl
theorem i44 (e : Fin 600000) (j : Fin 128) : idx_main_v44 (ix2 e j) = ix2 e (0 : Fin 1) :=
  funext fun a => by match a with | ⟨0, _⟩ => rfl | ⟨1, _⟩ => rfl
theorem i49 (e : Fin 600000) (j : Fin 128) : idx_main_v49 (ix2 e j) = ix2 e (0 : Fin 1) :=
  funext fun a => by match a with | ⟨0, _⟩ => rfl | ⟨1, _⟩ => rfl
theorem bias52 (e : Fin 600000) (j : Fin 128) : idx_main_v51 (idx_main_v52 (ix2 e j)) = ix1 j :=
  funext fun a => by match a with | ⟨0, _⟩ => rfl
theorem bias55 (e : Fin 600000) (j : Fin 128) : idx_main_v54 (idx_main_v55 (ix2 e j)) = ix1 j :=
  funext fun a => by match a with | ⟨0, _⟩ => rfl

/-- The row sum: the initial word is zero, so the sum is the plain sum of the row. -/
theorem rowsum (e : Fin 600000) :
    val_main_v33 (F := Ideal) x0 x1 x2 x3 x4 x5 x6 x7 x8 (ix1 e) = ∑ k, Y x0 x1 x2 x3 x4 x5 x6 x7 x8 e k := by
  rw [val_main_v33_apply, val_main_cst_apply, Ideal.ofBits_def, Ideal.ofBits_zero_f32, zero_add]
  exact Finset.sum_congr rfl (fun k _ => by rw [i33, layer3])

theorem mean_row (e : Fin 600000) :
    val_main_v36 (F := Ideal) x0 x1 x2 x3 x4 x5 x6 x7 x8 (ix2 e (0 : Fin 1)) = mean (Y x0 x1 x2 x3 x4 x5 x6 x7 x8 e) := by
  rw [val_main_v36_apply, val_main_v34_apply, val_main_v35_apply, val_main_cst_3_apply, i34, rowsum]
  rfl

theorem cent38 (e : Fin 600000) (j : Fin 128) :
    val_main_v38 (F := Ideal) x0 x1 x2 x3 x4 x5 x6 x7 x8 (ix2 e j)
      = Y x0 x1 x2 x3 x4 x5 x6 x7 x8 e j - mean (Y x0 x1 x2 x3 x4 x5 x6 x7 x8 e) := by
  rw [val_main_v38_apply, val_main_v37_apply, i37, mean_row, layer3]
  rfl

theorem cent45 (e : Fin 600000) (j : Fin 128) :
    val_main_v45 (F := Ideal) x0 x1 x2 x3 x4 x5 x6 x7 x8 (ix2 e j)
      = Y x0 x1 x2 x3 x4 x5 x6 x7 x8 e j - mean (Y x0 x1 x2 x3 x4 x5 x6 x7 x8 e) := by
  rw [val_main_v45_apply, val_main_v44_apply, i44, mean_row, layer3]
  rfl

theorem var_row (e : Fin 600000) :
    val_main_v43 (F := Ideal) x0 x1 x2 x3 x4 x5 x6 x7 x8 (ix2 e (0 : Fin 1))
      = mean (fun k => (Y x0 x1 x2 x3 x4 x5 x6 x7 x8 e k - mean (Y x0 x1 x2 x3 x4 x5 x6 x7 x8 e))
          * (Y x0 x1 x2 x3 x4 x5 x6 x7 x8 e k - mean (Y x0 x1 x2 x3 x4 x5 x6 x7 x8 e))) := by
  rw [val_main_v43_apply, val_main_v41_apply, val_main_v42_apply, val_main_cst_5_apply, i41, val_main_v40_apply,
    val_main_cst_4_apply, Ideal.ofBits_def, Ideal.ofBits_zero_f32, zero_add]
  refine congrArg (fun s => Ideal.div s (Ideal.ofBits .f32 0x43000000#32)) (Finset.sum_congr rfl (fun k _ => ?_))
  rw [i40, val_main_v39_apply, cent38]
  rfl

/-- The reference's result array is the specification's function of the edge rows, the two gathered rows and the
    weights: entry `(e, j)` is the normalised third-layer row of edge `e` at `j`. -/
theorem ref_eq :
    val_main_v56 (F := Ideal) x0 x1 x2 x3 x4 x5 x6 x7 x8 x9 x10
      = Cert.EdgeMlp.G (R := 600000) x0 (val_main_v10 (F := Ideal) x1 x2) (val_main_v17 (F := Ideal) x1 x2)
          x3 x4 x5 x6 x7 x8 x9 x10 := by
  funext i
  obtain ⟨e, j, rfl⟩ : ∃ (e : Fin 600000) (j : Fin 128), i = ix2 e j := ⟨i 0, i 1, eq_ix2 i⟩
  rw [G_ix2, val_main_v56_apply, val_main_v53_apply, val_main_v50_apply, val_main_v49_apply, i49, val_main_v48_apply,
    val_main_v47_apply, var_row, val_main_v46_apply, val_main_cst_6_apply, cent45, val_main_v52_apply, val_main_v51_apply,
    bias52, val_main_v55_apply, val_main_v54_apply, bias55]
  rfl

end Cert.EdgeMlp.RefBody

end
-- ==== Proof.Gathered.lean ====
/-
  The two gathered node arrays. For each edge the host side takes the row of the node table named by the edge's sender
  (row 0 of the index pairs) and by its receiver (row 1). An index `x` is first wrapped: `w = x + 50000` when
  `x < 0` (signed), else `w = x`. One program then masks the gathered row: a row whose wrapped index is outside
  `0 ≤ w ≤ 49999` is replaced by a fixed word; the other program takes the gathered row as it is. The precondition
  bounds every index by `-50000 ≤ x < 50000` (signed 32-bit words), so `0 ≤ w ≤ 49999` at every edge, the mask is
  1 everywhere, and the masked array is the gathered array. The gather itself is never opened: both sides apply the same
  gather to the same table and the same wrapped index column.
-/
import proofs.«427870_j38345468018709_1_alg».proof.Defs
import proofs.«427870_j38345468018709_1_alg».proof.Proof.Gen.KernelIdeal.Frame
import proofs.«427870_j38345468018709_1_alg».proof.Proof.Gen.ReferenceIdeal.Read
import proofs.«427870_j38345468018709_1_alg».proof.Proof.Gen.Pre_finite_inputs
import Idealize.ShloMosaic.Lib.StableHlo.Run
import Idealize.ShloMosaic.Lib.ReduceAll
import Idealize.ShloMosaic.Lib.StableHlo.Predicate
import Idealize.ShloMosaic.Lib.ValueIdx

set_option maxRecDepth 16384

noncomputable section

namespace Cert.EdgeMlp.Gathered

open Cert.KernelIdeal Cert.KernelIdeal.Gen Idealize.ShloMosaic Idealize.SL.Sem
open Idealize.ShloMosaic.TcCoe Idealize.ShloMosaic.StableHlo
open Cert.ReferenceIdeal.Read (val_main_v9 val_main_v10 val_main_v16 val_main_v17)

/-! ## Signed comparisons of 32-bit words, as comparisons of their integer values -/

theorem sge_iff_toInt (a b : BitVec 32) : IntOp.cmpi .sge a b = 1#1 ↔ b.toInt ≤ a.toInt := by
  simp only [IntOp.cmpi, Predicate.ofBool_eq_one_iff, BitVec.sle, decide_eq_true_eq]

theorem sle_iff_toInt (a b : BitVec 32) : IntOp.cmpi .sle a b = 1#1 ↔ a.toInt ≤ b.toInt := by
  simp only [IntOp.cmpi, Predicate.ofBool_eq_one_iff, BitVec.sle, decide_eq_true_eq]

theorem slt_iff_toInt (a b : BitVec 32) : IntOp.cmpi .slt a b = 1#1 ↔ a.toInt < b.toInt := by
  simp only [IntOp.cmpi, Predicate.ofBool_eq_one_iff, BitVec.slt, decide_eq_true_eq]

/-- A word `x` with `-50000 ≤ x < 50000`, wrapped (`x + 50000` when negative, else `x`), lies in `0 ≤ w ≤ 49999`:
    a negative `x` gives `0 ≤ x + 50000 < 50000` with no overflow, a non-negative one is below 50000 already. -/
theorem wrapped_in_range (x : BitVec 32)
    (hlo : IntOp.cmpi .sge x 4294917296#32 = 1#1) (hhi : IntOp.cmpi .slt x 50000#32 = 1#1) :
    IntOp.andi (IntOp.cmpi .sge (Scalar.select (IntOp.cmpi .slt x 0#32) (IntOp.addi x 50000#32) x) 0#32)
      (IntOp.cmpi .sle (Scalar.select (IntOp.cmpi .slt x 0#32) (IntOp.addi x 50000#32) x) 49999#32) = 1#1 := by
  have e1 : (4294917296#32 : BitVec 32).toInt = -50000 := by decide
  have e2 : (50000#32 : BitVec 32).toInt = 50000 := by decide
  have e0 : (0#32 : BitVec 32).toInt = 0 := by decide
  have e3 : (49999#32 : BitVec 32).toInt = 49999 := by decide
  have hlo' := (sge_iff_toInt _ _).1 hlo
  have hhi' := (slt_iff_toInt _ _).1 hhi
  rw [e1] at hlo'
  rw [e2] at hhi'
  rw [IntOp.andi_eq_one, sge_iff_toInt, sle_iff_toInt, e0, e3]
  by_cases hneg : x.toInt < 0
  · have hc : IntOp.cmpi .slt x 0#32 = 1#1 := (slt_iff_toInt _ _).2 (by rw [e0]; exact hneg)
    rw [hc, ValueIdx.select_one]
    have hadd : (IntOp.addi x 50000#32).toInt = x.toInt + 50000 := by
      show (x + 50000#32).toInt = _
      rw [BitVec.toInt_add, e2]
      exact Int.bmod_eq_of_le (by omega) (by omega)
    rw [hadd]
    omega
  · have hc : IntOp.cmpi .slt x 0#32 ≠ 1#1 := fun h => hneg (by have := (slt_iff_toInt _ _).1 h; rw [e0] at this; exact this)
    have hs : Scalar.select (IntOp.cmpi .slt x 0#32) (IntOp.addi x 50000#32) x = x := if_neg hc
    rw [hs]
    omega

/-! ## A conjunction of ones is one -/

/-- A left fold of `and` from 1 over words that are all 1 is 1. -/
theorem foldl_andi_ones {ι : Type} (f : ι → BitVec 1) (l : List ι) (h : ∀ n ∈ l, f n = 1#1) :
    l.foldl (fun r n => IntOp.andi r (f n)) 1#1 = 1#1 := by
  induction l with
  | nil => rfl
  | cons a l ih =>
    have e : IntOp.andi (1#1) (1#1) = 1#1 := by decide
    rw [List.foldl_cons, h a List.mem_cons_self, e]
    exact ih (fun n hn => h n (List.mem_cons_of_mem _ hn))

/-- The reduction by `and`, from 1, of an array that is 1 everywhere is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x _ (fun n _ => hx n)

/-! ## The precondition read at one index pair entry -/

/-- The precondition's last conjunct: every entry `x` of the index pairs has `-50000 ≤ x` and `x < 50000`, signed. -/
theorem pre_range (m : (ℓ : Loc nD τ sig) → Buf (Elt Ideal) ℓ) (hpre : Cert.Pre_KernelIdeal m) (c : Dev nD)
    (i : S2x600000.Idx) :
    IntOp.cmpi .sge ((m ((c : Thread nD τ).loc main_arg2) : IVec S2x600000 32) i) 4294917296#32 = 1#1
      ∧ IntOp.cmpi .slt ((m ((c : Thread nD τ).loc main_arg2) : IVec S2x600000 32) i) 50000#32 = 1#1 := by
  haveI : Subsingleton Cert.Pre_finite_inputs.S_.Idx := ⟨fun a b => funext fun d => d.elim0⟩
  have h := congrFun (hpre c) ValueIdx.ix0
  dsimp only [Cert.Pre_finite_inputs.fn, Cert.Pre_finite_inputs.fn_part1, Cert.Pre_finite_inputs.fn_part2,
    Cert.Pre_finite_inputs.fn_part3] at h
  have h54 := (IntOp.andi_eq_one.1 h).2
  have hi := Host.reduce_andi_all _ _ _ _ _ h54 i
  exact IntOp.andi_eq_one.1 hi

/-! ## The mask -/

/-- Which rows have their wrapped index inside the table: the conjunction, over the one column, of `0 ≤ w` and
    `w ≤ 49999` (signed). -/
def rowsInRange (w : IVec S600000x1 32) : IVec S600000 1 :=
  Host.reduce IntOp.andi
    (andi (cmpi .sge w (broadcastInDim S600000x1 ![] bcast_S_S600000x1 (constantI S_ 32 0#32)))
      (cmpi .sle w (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- When every entry of the column is in `0 ≤ w ≤ 49999`, every row passes. -/
theorem rowsInRange_one (w : IVec S600000x1 32)
    (hw : ∀ k, IntOp.andi (IntOp.cmpi .sge (w k) 0#32) (IntOp.cmpi .sle (w k) 49999#32) = 1#1) (j : S600000.Idx) :
    rowsInRange w j = 1#1 :=
  reduce_andi_ones _ _ _ _ (fun k => hw k) (fun _ => rfl) j

/-- The senders' wrapped index column: entry `k` is the wrapping of entry `(0, k 0)` of the index pairs. -/
theorem sender_col (x2 : IVec S2x600000 32)
    (hx : ∀ i, IntOp.cmpi .sge (x2 i) 4294917296#32 = 1#1 ∧ IntOp.cmpi .slt (x2 i) 50000#32 = 1#1) (k : S600000x1.Idx) :
    IntOp.andi (IntOp.cmpi .sge (val_main_v9 (F := Ideal) x2 k) 0#32) (IntOp.cmpi .sle (val_main_v9 (F := Ideal) x2 k) 49999#32) = 1#1 := by
  rw [Cert.ReferenceIdeal.Read.val_main_v9_apply, Cert.ReferenceIdeal.Read.val_main_v8_apply,
    Cert.ReferenceIdeal.Read.val_main_v5_apply, Cert.ReferenceIdeal.Read.val_main_v7_apply,
    Cert.ReferenceIdeal.Read.val_main_v1_apply, Cert.ReferenceIdeal.Read.val_main_v0_apply]
  exact wrapped_in_range _ (hx _).1 (hx _).2

/-- The receivers' wrapped index column: entry `k` is the wrapping of entry `(1, k 0)` of the index pairs. -/
theorem receiver_col (x2 : IVec S2x600000 32)
    (hx : ∀ i, IntOp.cmpi .sge (x2 i) 4294917296#32 = 1#1 ∧ IntOp.cmpi .slt (x2 i) 50000#32 = 1#1) (k : S600000x1.Idx) :
    IntOp.andi (IntOp.cmpi .sge (val_main_v16 (F := Ideal) x2 k) 0#32) (IntOp.cmpi .sle (val_main_v16 (F := Ideal) x2 k) 49999#32) = 1#1 := by
  rw [Cert.ReferenceIdeal.Read.val_main_v16_apply, Cert.ReferenceIdeal.Read.val_main_v15_apply,
    Cert.ReferenceIdeal.Read.val_main_v12_apply, Cert.ReferenceIdeal.Read.val_main_v14_apply,
    Cert.ReferenceIdeal.Read.val_main_v3_apply, Cert.ReferenceIdeal.Read.val_main_v2_apply]
  exact wrapped_in_range _ (hx _).1 (hx _).2

/-! ## The two gathered arrays -/

/-- The senders' rows: the masked gather is the plain gather of the table at the wrapped sender column. -/
theorem sender_eq (m : (ℓ : Loc nD τ sig) → Buf (Elt Ideal) ℓ) (hpre : Cert.Pre_KernelIdeal m) (c : Dev nD) :
    V m c main_v4 = val_main_v10 (F := Ideal) (m ((c : Thread nD τ).loc main_arg1)) (m ((c : Thread nD τ).loc main_arg2)) := by
  -- the array as the host operations leave it: select (mask along the rows) (the gathered rows) (the fixed word)
  have e : (V m c main_v4 : S600000x128.Idx → EReal)
      = select (broadcastInDim S600000x128 ![0] bcast_S600000_S600000x128_0
            (rowsInRange (val_main_v9 (F := Ideal) (m ((c : Thread nD τ).loc main_arg2)))))
          (val_main_v10 (F := Ideal) (m ((c : Thread nD τ).loc main_arg1)) (m ((c : Thread nD τ).loc main_arg2)))
          (broadcastInDim S600000x128 ![] bcast_S_S600000x128 (constant (F := Ideal) S_ .f32 0x7FC00000#32)) := by
    dsimp only [V]
    simp only [hostOps0, hostOps0_1, hostOps0_2, List.flatten_cons, List.flatten_nil, List.append_nil, List.cons_append, List.nil_append]
    after_results_simp
    simp only [TRef.toBuf, TRef.ofBuf, cast_eq]
    rfl
  refine e.trans (funext fun i => ?_)
  rw [ValueIdx.select_apply]
  -- the mask at (row, lane) is the row's conjunction, which is 1
  have hm : broadcastInDim S600000x128 ![0] bcast_S600000_S600000x128_0
      (rowsInRange (val_main_v9 (F := Ideal) (m ((c : Thread nD τ).loc main_arg2)))) i = 1#1 := by
    unfold broadcastInDim
    exact rowsInRange_one _ (sender_col _ (pre_range m hpre c)) _
  rw [hm, ValueIdx.select_one]

/-- The receivers' rows: the masked gather is the plain gather of the table at the wrapped receiver column. -/
theorem receiver_eq (m : (ℓ : Loc nD τ sig) → Buf (Elt Ideal) ℓ) (hpre : Cert.Pre_KernelIdeal m) (c : Dev nD) :
    V m c main_v5 = val_main_v17 (F := Ideal) (m ((c : Thread nD τ).loc main_arg1)) (m ((c : Thread nD τ).loc main_arg2)) := by
  have e : (V m c main_v5 : S600000x128.Idx → EReal)
      = select (broadcastInDim S600000x128 ![0] bcast_S600000_S600000x128_0
            (rowsInRange (val_main_v16 (F := Ideal) (m ((c : Thread nD τ).loc main_arg2)))))
          (val_main_v17 (F := Ideal) (m ((c : Thread nD τ).loc main_arg1)) (m ((c : Thread nD τ).loc main_arg2)))
          (broadcastInDim S600000x128 ![] bcast_S_S600000x128 (constant (F := Ideal) S_ .f32 0x7FC00000#32)) := by
    dsimp only [V]
    simp only [hostOps0, hostOps0_1, hostOps0_2, List.flatten_cons, List.flatten_nil, List.append_nil, List.cons_append, List.nil_append]
    after_results_simp
    simp only [TRef.toBuf, TRef.ofBuf, cast_eq]
    rfl
  refine e.trans (funext fun i => ?_)
  rw [ValueIdx.select_apply]
  have hm : broadcastInDim S600000x128 ![0] bcast_S600000_S600000x128_0
      (rowsInRange (val_main_v16 (F := Ideal) (m ((c : Thread nD τ).loc main_arg2)))) i = 1#1 := by
    unfold broadcastInDim
    exact rowsInRange_one _ (receiver_col _ (pre_range m hpre c)) _
  rw [hm, ValueIdx.select_one]

end Cert.EdgeMlp.Gathered

end
-- ==== Proof.lean ====
/-
  An edge-update layer of a graph network, certified against its plain reference over the extended reals.

  For each of 600000 edges both programs take the edge's 128 features and the 128 features of its sender and of its
  receiver node (rows of a 50000-row node table named by two index rows), lay the three side by side (384 entries), apply
  three affine layers — the first two followed by a maximum with zero — and normalise the resulting row of 128: subtract
  the row mean, scale by the reciprocal square root of the row variance plus a small constant, multiply by a scale row
  and add a shift row. The kernel gathers the node rows on the host and streams 4000 edges per grid point (150 points)
  through one body with the weights resident; the reference computes the same expression on whole arrays. On the
  extended reals a change of float format is the identity and a product into a zero accumulator is the plain sum, so
  the two are the same function of the same operands, operation for operation: no algebraic law and no finiteness is
  used. The one place the programs differ is an index outside the table: there the kernel's gather fills the row with
  a fixed word while the reference clamps the index. The precondition keeps every index inside the table's range
  (`-50000 ≤ i < 50000`, negative indices counting from the end, which both programs wrap the same way), and under it
  the kernel's two gathered arrays are the reference's.

  The pieces: `Proof/Spec.lean` (the function, row by row), `Proof/KernelBody.lean` (one grid point's body is that
  function on its blocks), `Proof/KernelBlocks.lean` and `Proof/KernelRun.lean` (the blocks are rows of the arrays; the
  150 row blocks tile the result), `Proof/RefBody.lean` (the reference's operations compose to that function),
  `Proof/Gathered.lean` (under the precondition the masked gathers are the plain gathers). Here they are joined.
-/
import proofs.«427870_j38345468018709_1_alg».proof.Defs
import proofs.«427870_j38345468018709_1_alg».proof.Proof.Gen.Kernel
import proofs.«427870_j38345468018709_1_alg».proof.Proof.Gen.Kernel.Skeleton
import proofs.«427870_j38345468018709_1_alg».proof.Proof.Gen.Kernel.Launch
import proofs.«427870_j38345468018709_1_alg».proof.Proof.Gen.Kernel.Points
import proofs.«427870_j38345468018709_1_alg».proof.Proof.Gen.Kernel.Frame
import proofs.«427870_j38345468018709_1_alg».proof.Proof.Gen.KernelIdeal
import proofs.«427870_j38345468018709_1_alg».proof.Proof.Gen.KernelIdeal.Skeleton
import proofs.«427870_j38345468018709_1_alg».proof.Proof.Gen.KernelIdeal.Launch
import proofs.«427870_j38345468018709_1_alg».proof.Proof.Gen.KernelIdeal.Points
import proofs.«427870_j38345468018709_1_alg».proof.Proof.Gen.KernelIdeal.Frame
import proofs.«427870_j38345468018709_1_alg».proof.Proof.Gen.ReferenceIdeal
import proofs.«427870_j38345468018709_1_alg».proof.Proof.Gen.Pre_finite_inputs
import proofs.«427870_j38345468018709_1_alg».proof.Proof.Gen.KernelIdeal.Value
import proofs.«427870_j38345468018709_1_alg».proof.Proof.Gen.ReferenceIdeal.Run
import proofs.«427870_j38345468018709_1_alg».proof.Proof.Gen.ReferenceIdeal.Read
import proofs.«427870_j38345468018709_1_alg».proof.Proof.KernelRun
import proofs.«427870_j38345468018709_1_alg».proof.Proof.RefBody
import proofs.«427870_j38345468018709_1_alg».proof.Proof.Gathered
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Under the precondition the arrays the kernel's region finds are the arguments themselves and, for the two gathered
    arrays, the reference's own gather terms: so the specification's whole array of what the region finds is the
    specification's whole array of the arguments. -/
theorem found_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.EdgeMlp.KernelBlocks.Gfull m c
      = Cert.EdgeMlp.G (R := 600000) (m ((c : Thread Cert.KernelIdeal.nD Cert.KernelIdeal.τ).loc Cert.KernelIdeal.main_arg0))
          (Cert.ReferenceIdeal.Read.val_main_v10 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)))
          (Cert.ReferenceIdeal.Read.val_main_v17 (F := Ideal) (m ((c : Thread Cert.KernelIdeal.nD Cert.KernelIdeal.τ).loc Cert.KernelIdeal.main_arg1)) (m ((c : Thread Cert.KernelIdeal.nD Cert.KernelIdeal.τ).loc Cert.KernelIdeal.main_arg2)))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8))
          (m ((c : Thread Cert.KernelIdeal.nD Cert.KernelIdeal.τ).loc Cert.KernelIdeal.main_arg9))
          (m ((c : Thread Cert.KernelIdeal.nD Cert.KernelIdeal.τ).loc Cert.KernelIdeal.main_arg10)) := by
  show Cert.EdgeMlp.G (R := 600000) (Cert.KernelIdeal.Gen.V m c Cert.KernelIdeal.main_arg0) (Cert.KernelIdeal.Gen.V m c Cert.KernelIdeal.main_v4)
    (Cert.KernelIdeal.Gen.V m c Cert.KernelIdeal.main_v5) (Cert.KernelIdeal.Gen.V m c Cert.KernelIdeal.main_arg3) (Cert.KernelIdeal.Gen.V m c Cert.KernelIdeal.main_arg4) (Cert.KernelIdeal.Gen.V m c Cert.KernelIdeal.main_arg5) (Cert.KernelIdeal.Gen.V m c Cert.KernelIdeal.main_arg6) (Cert.KernelIdeal.Gen.V m c Cert.KernelIdeal.main_arg7) (Cert.KernelIdeal.Gen.V m c Cert.KernelIdeal.main_arg8) (Cert.KernelIdeal.Gen.V m c Cert.KernelIdeal.main_arg9) (Cert.KernelIdeal.Gen.V m c Cert.KernelIdeal.main_arg10) = _
  rw [Cert.KernelIdeal.Gen.V_main_arg0 m c, Cert.EdgeMlp.Gathered.sender_eq m hpre c, Cert.EdgeMlp.Gathered.receiver_eq m hpre c,
    Cert.KernelIdeal.Gen.V_main_arg3 m c, Cert.KernelIdeal.Gen.V_main_arg4 m c, Cert.KernelIdeal.Gen.V_main_arg5 m c, Cert.KernelIdeal.Gen.V_main_arg6 m c, Cert.KernelIdeal.Gen.V_main_arg7 m c, Cert.KernelIdeal.Gen.V_main_arg8 m c, Cert.KernelIdeal.Gen.V_main_arg9 m c, Cert.KernelIdeal.Gen.V_main_arg10 m c]

/-- From memories that agree on the arguments both programs end with the same result array: the kernel's run leaves the
    specification's array of what its region finds, the reference's run leaves its operations' composed term, and both
    are the specification's array of the arguments. -/
theorem algebraic : Cert.algebraic_KernelIdeal_ReferenceIdeal := by
  intro m ρ m' ρ' hpre hagree
  refine ⟨fun c => Cert.EdgeMlp.KernelBlocks.Gfull m c, Cert.EdgeMlp.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v56_eq, a0, a1, a2, a3, a4, a5, a6, a7, a8, a9, a10, Cert.EdgeMlp.RefBody.ref_eq]
  exact (found_eq m hpre c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
